-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S1x8192 : Shape := ⟨2, ![1, 8192]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S_ : Shape := ⟨0, ![]⟩

abbrev nBuf : Space → Nat
  | .hbm => 22
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S1x8192, .i32⟩
  | .hbm, ⟨3, _⟩ => ⟨S1x8192, .f32⟩
  | .hbm, ⟨4, _⟩ => ⟨S1x8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .i1⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .local _ .vmem, ⟨0, _⟩ => ⟨S1024x1024, .f32⟩
  | .local _ .vmem, ⟨1, _⟩ => ⟨S1024x1024, .f32⟩
  | .local _ .vmem, ⟨2, _⟩ => ⟨S1x1024, .i32⟩
  | .local _ .vmem, ⟨3, _⟩ => ⟨S1x1024, .i32⟩
  | .local _ .vmem, ⟨4, _⟩ => ⟨S1x1024, .i32⟩
  | .local _ .vmem, ⟨5, _⟩ => ⟨S1x1024, .i32⟩
  | .local _ .vmem, ⟨6, _⟩ => ⟨S1x8192, .f32⟩
  | .local _ .vmem, ⟨7, _⟩ => ⟨S1x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v21 : BitVec 32 := Scalar.muli arg1 c1024_i32
  v21
def k0_mult2 (i : grid0.Coords) : BitVec 32 :=
  let arg0 : BitVec 32 := BitVec.ofNat 32 (i 0).val
  let c1024_i32_10 : BitVec 32 := 1024#32
  let v23 : BitVec 32 := Scalar.muli arg0 c1024_i32_10
  v23
def k0_off1 (i : grid0.Coords) : Fin 2 → Nat :=
  let c0_11 : Index := 0#32
  let arg1 : BitVec 32 := BitVec.ofNat 32 (i 1).val
  let c1024_i32 : BitVec 32 := 1024#32
  let v21 : BitVec 32 := Scalar.muli arg1 c1024_i32
  let v22 : BitVec 32 := v21
  let v25 : Index := Scalar.indexCast v22
  ![0, v25.toNat]
def k0_off2 (i : grid0.Coords) : Fin 2 → Nat :=
  let c0_13 : Index := 0#32
  let arg0 : BitVec 32 := BitVec.ofNat 32 (i 0).val
  let c1024_i32_10 : BitVec 32 := 1024#32
  let v23 : BitVec 32 := Scalar.muli arg0 c1024_i32_10
  let v24 : BitVec 32 := v23
  let v33 : Index := Scalar.indexCast v24
  ![0, v33.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  reduces_S1024x1024_S1024_2 : S1024x1024.Reduces [1] S1024
  shapeCasts_S1x8192_S8192 : S1x8192.ShapeCasts S8192
  bcast_S_S8192 : S_.BroadcastsInDim S8192 (![] : Fin 0 → Fin S8192.rank)
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1x1024.size a ≤ S1x8192.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .i32 = 32 ∨ (Rect.block (s := S1x8192) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .i32 = 32 ∨ (Rect.block (s := S1x8192) S1x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x8192.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x8192.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S1x8192 : Shape := ⟨2, ![1, 8192]⟩
abbrev S8192x1 : Shape := ⟨2, ![8192, 1]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S1x8192, .i32⟩
  | .hbm, ⟨3, _⟩ => ⟨S8192x1, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192, .i1⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_call0_v0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_call1_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_v11 : Ref sig .tc := ⟨.hbm, 30, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d0 : S8192x8192.ReducesTo [0] S8192
  h_S_ : 0 < S_.numel
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)

variable [Facts₀]

class Facts : Prop extends Facts₀ where

variable [Facts]
-- ==== Proof.BRun.lean ====
/-
  The kernel body run once per control case, on any whole staging memrefs.

  At the first grid point the body fills both accumulators whole (the column maxima with zero, the row minima with +∞)
  and then updates one 1024-wide stretch of each; at every later point it only updates the two stretches. In both
  cases the three input buffers are read and left as they were. What the two accumulator buffers hold afterwards is
  stated as the stores found by the run (last first) written over what the buffers held when the body started.
-/
import proofs.«164058_j4466765988650_1_alg».proof.Proof.Gen.Kernel.Launch
import proofs.«164058_j4466765988650_1_alg».proof.Proof.Gen.Kernel.Skeleton
import proofs.«164058_j4466765988650_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, from the grid coordinates: both coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- A later point: the two accumulators are read at their stretches and updated there. -/
noncomputable def runLater (c : Dev nD) (i : grid0.Coords)
    (arg2 : Memref sig .tc .vmem S1024x1024 .f32) (harg2 : arg2.IsWhole) (arg3 : Memref sig .tc .vmem S1x1024 .i32) (harg3 : arg3.IsWhole)
    (arg4 : Memref sig .tc .vmem S1x1024 .i32) (harg4 : arg4.IsWhole) (arg5 : Memref sig .tc .vmem S1x8192 .f32) (harg5 : arg5.IsWhole)
    (arg6 : Memref sig .tc .vmem S1x8192 .f32) (harg6 : arg6.IsWhole) (hc0 : ¬cond0 i)
    (x0 : Vec F S1024x1024 .f32) (x1 : Vec F S1x1024 .i32) (x2 : Vec F S1x1024 .i32) (xo3 xo4 : Vec F S1x8192 .f32) :
    Σ' (L3 : List (View.Piece (Elt F) S1x8192 .f32)), { L4 : List (View.Piece (Elt F) S1x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L3)
                ∗ (arg6.view.loc (c : Thread nD τ) ↦[arg6.view.set]{fullShare} arg6.view.writes (Elt F) (harg6.unread xo4) L4)) -∗ K ⟨⟩))
          ⊢ wp frame (wpE (defs₀ (F := F)) Variants.none c none) E (cc0__batchhard_kernel i arg2 harg2 arg3 harg3 arg4 harg4 arg5 harg5 arg6 harg6) K } := by
  refine ⟨?_, ?_, fun E K => ?run⟩
  case run =>
    simp only [cc0__batchhard_kernel_eq_skeleton]; unfold cc0__batchhard_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexact H3
    iexact H4

set_option maxHeartbeats 1000000 in
/-- The first point: both accumulators are filled whole, then read at their stretches and updated there; what they
    held before is overwritten. -/
noncomputable def runFirst (c : Dev nD) (i : grid0.Coords)
    (arg2 : Memref sig .tc .vmem S1024x1024 .f32) (harg2 : arg2.IsWhole) (arg3 : Memref sig .tc .vmem S1x1024 .i32) (harg3 : arg3.IsWhole)
    (arg4 : Memref sig .tc .vmem S1x1024 .i32) (harg4 : arg4.IsWhole) (arg5 : Memref sig .tc .vmem S1x8192 .f32) (harg5 : arg5.IsWhole)
    (arg6 : Memref sig .tc .vmem S1x8192 .f32) (harg6 : arg6.IsWhole) (hc0 : cond0 i)
    (x0 : Vec F S1024x1024 .f32) (x1 : Vec F S1x1024 .i32) (x2 : Vec F S1x1024 .i32) :
    Σ' (L3 : List (View.Piece (Elt F) S1x8192 .f32)), { L4 : List (View.Piece (Elt F) S1x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__batchhard_kernel i arg2 harg2 arg3 harg3 arg4 harg4 arg5 harg5 arg6 harg6) K } := by
  refine ⟨?_, ?_, fun E K => ?run⟩
  case run =>
    simp only [cc0__batchhard_kernel_eq_skeleton]; unfold cc0__batchhard_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Hand

end
-- ==== Proof.BStep.lean ====
/-
  One grid point's effect on the two accumulators, as functions. The body replaces one 1024-wide stretch of the
  column maxima — the columns of the point's column tile — by what it computes from the stretch's old contents and
  the point's three input blocks, and likewise one stretch of the row minima — the rows of the point's row tile;
  at the first point the stretches are read from the fills (zero, +∞) it has just stored. What either run leaves in a
  whole accumulator buffer, read back, is that function of what the buffer held.
-/
import proofs.«164058_j4466765988650_1_alg».proof.Proof.BRun
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-- The stretch of the column maxima the point updates, and the stretch of the row minima. -/
abbrev rPos (i : grid0.Coords) : Rect S1x8192 := Rect.unit (s := S1x8192) (k0_off1 i) S1x1024.size (k0_off1_inb i)
abbrev rNeg (i : grid0.Coords) : Rect S1x8192 := Rect.unit (s := S1x8192) (k0_off2 i) S1x1024.size (k0_off2_inb i)

/-- `a` with the 1024-wide stretch at offsets `off` replaced by `w`. -/
def putAt (off : Fin 2 → ℕ) (a : Vec F S1x8192 .f32) (w : Vec F S1x1024 .f32) : Vec F S1x8192 .f32 := fun y =>
  if h : ∀ b, off b ≤ (y b).val ∧ (y b).val < off b + S1x1024.size b then
    w (Rect.unitLocal (s := S1x8192) (off := off) (size := S1x1024.size) y h)
  else a y

/-- The column maxima after the point's update of `a`, from the rows' identities `x1`, the columns' `x2` and the tile `x0`. -/
def stepPos (i : grid0.Coords) (x1 x2 : Vec F S1x1024 .i32) (x0 : Vec F S1024x1024 .f32) (a : Vec F S1x8192 .f32) : Vec F S1x8192 .f32 :=
  putAt (k0_off1 i) a (k0_pay5 x1 x2 x0 (View.ld a (rPos i)))

/-- The row minima after the point's update of `a`. -/
def stepNeg (i : grid0.Coords) (x1 x2 : Vec F S1x1024 .i32) (x0 : Vec F S1024x1024 .f32) (a : Vec F S1x8192 .f32) : Vec F S1x8192 .f32 :=
  putAt (k0_off2 i) a (k0_pay1 (k0_pay6 x1 x2 x0 (View.ld a (rNeg i))))

/-- One store through a stretch over a whole buffer holding `a`, read back, is `putAt`. -/
theorem read_put (arg : Memref sig .tc .vmem S1x8192 .f32) (harg : arg.IsWhole) (off : Fin 2 → ℕ)
    (inb : ∀ b, off b + S1x1024.size b ≤ S1x8192.size b) (a : Vec F S1x8192 .f32) (w : Vec F S1x1024 .f32) :
    arg.view.read (Elt F) (arg.view.writes (Elt F) (harg.unread a) [⟨Rect.unit (s := S1x8192) off S1x1024.size inb, w⟩]) = putAt off a w := by
  funext y
  rw [View.read_writes_cons_unit arg.view _ inb w [] y rfl]
  unfold putAt
  split
  · rfl
  · rw [View.writes_nil]; exact congrFun (harg.read_unread a) y

/-- The same over any contents, when a whole-buffer store of `a` came first. -/
theorem read_put_fill (arg : Memref sig .tc .vmem S1x8192 .f32) (f : arg.view.ty.Contents (Elt F)) (off : Fin 2 → ℕ)
    (inb : ∀ b, off b + S1x1024.size b ≤ S1x8192.size b) (a : Vec F S1x8192 .f32) (w : Vec F S1x1024 .f32) :
    arg.view.read (Elt F) (arg.view.writes (Elt F) f
      [⟨Rect.unit (s := S1x8192) off S1x1024.size inb, w⟩, ⟨Rect.unit (s := S1x8192) ![0, 0] S1x8192.size inb_S1x8192_S1x8192_0_0, a⟩]) = putAt off a w := by
  funext y
  rw [View.read_writes_cons_unit arg.view _ inb w _ y rfl]
  unfold putAt
  split
  · rfl
  · exact View.read_writes_cons_unit_of_mem arg.view f inb_S1x8192_S1x8192_0_0 a [] y y rfl (fun b => by
      match b with
      | ⟨0, _⟩ => exact (Nat.zero_add _).symm
      | ⟨1, _⟩ => exact (Nat.zero_add _).symm)

end Cert.Kernel.Hand

end
-- ==== Proof.BPieces.lean ====
/-
  The stores the two runs found, opened: at a later point one store per accumulator, through the point's stretch, of
  the body's payload over the three input blocks and the stretch's old contents; at the first point the same store
  after a whole-buffer fill, the stretch read from the fill. So what a run leaves in an accumulator buffer is the
  step function of what it found there (of the fill, at the first point).
-/
import proofs.«164058_j4466765988650_1_alg».proof.Proof.BStep
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

theorem zero2 : (![0, 0] : Fin 2 → ℕ) = fun _ => 0 := by
  funext a; match a with | ⟨0, _⟩ => rfl | ⟨1, _⟩ => rfl

/-- A whole-buffer store of `a`, read back, is `a`, whatever the buffer held. -/
theorem read_fill (arg : Memref sig .tc .vmem S1x8192 .f32) (f : arg.view.ty.Contents (Elt F)) (a : Vec F S1x8192 .f32) :
    arg.view.read (Elt F) (arg.view.writes (Elt F) f
      [⟨Rect.unit (s := S1x8192) ![0, 0] S1x8192.size inb_S1x8192_S1x8192_0_0, a⟩]) = a := by
  funext y
  exact View.read_writes_cons_unit_of_mem arg.view f inb_S1x8192_S1x8192_0_0 a [] y y rfl (fun b => by
    match b with
    | ⟨0, _⟩ => exact (Nat.zero_add _).symm
    | ⟨1, _⟩ => exact (Nat.zero_add _).symm)

section Later

variable (c : Dev nD) (i : grid0.Coords)
    (arg2 : Memref sig .tc .vmem S1024x1024 .f32) (harg2 : arg2.IsWhole) (arg3 : Memref sig .tc .vmem S1x1024 .i32) (harg3 : arg3.IsWhole)
    (arg4 : Memref sig .tc .vmem S1x1024 .i32) (harg4 : arg4.IsWhole) (arg5 : Memref sig .tc .vmem S1x8192 .f32) (harg5 : arg5.IsWhole)
    (arg6 : Memref sig .tc .vmem S1x8192 .f32) (harg6 : arg6.IsWhole) (hc0 : ¬cond0 i)
    (x0 : Vec F S1024x1024 .f32) (x1 : Vec F S1x1024 .i32) (x2 : Vec F S1x1024 .i32) (xo3 xo4 : Vec F S1x8192 .f32)

/-- A later point's one store into the column maxima. -/
theorem runLater_pos :
    (runLater c i arg2 harg2 arg3 harg3 arg4 harg4 arg5 harg5 arg6 harg6 hc0 x0 x1 x2 xo3 xo4).1
      = [⟨rPos i, k0_pay5 x1 x2 x0 (View.ld xo3 (rPos i))⟩] := by
  unfold runLater
  dsimp only
  simp only [View.readAt_eq_ld, harg2.read_unread, harg3.read_unread, harg4.read_unread, harg5.read_unread,
    View.ld_unit_zero (S := S1x1024) zero2, View.ld_unit_zero (S := S1024x1024) zero2]

/-- A later point's one store into the row minima. -/
theorem runLater_neg :
    (runLater c i arg2 harg2 arg3 harg3 arg4 harg4 arg5 harg5 arg6 harg6 hc0 x0 x1 x2 xo3 xo4).2.1
      = [⟨rNeg i, k0_pay1 (k0_pay6 x1 x2 x0 (View.ld xo4 (rNeg i)))⟩] := by
  unfold runLater
  dsimp only
  simp only [View.readAt_eq_ld, harg2.read_unread, harg3.read_unread, harg4.read_unread, harg6.read_unread,
    View.ld_unit_zero (S := S1x1024) zero2, View.ld_unit_zero (S := S1024x1024) zero2]

/-- So a later point leaves the column maxima one step on from what it found, -/
theorem later_leaves_pos :
    arg5.view.read (Elt F) (arg5.view.writes (Elt F) (harg5.unread xo3)
      (runLater c i arg2 harg2 arg3 harg3 arg4 harg4 arg5 harg5 arg6 harg6 hc0 x0 x1 x2 xo3 xo4).1) = stepPos i x1 x2 x0 xo3 := by
  rw [runLater_pos]; exact read_put arg5 harg5 (k0_off1 i) (k0_off1_inb i) xo3 _

/-- and the row minima. -/
theorem later_leaves_neg :
    arg6.view.read (Elt F) (arg6.view.writes (Elt F) (harg6.unread xo4)
      (runLater c i arg2 harg2 arg3 harg3 arg4 harg4 arg5 harg5 arg6 harg6 hc0 x0 x1 x2 xo3 xo4).2.1) = stepNeg i x1 x2 x0 xo4 := by
  rw [runLater_neg]; exact read_put arg6 harg6 (k0_off2 i) (k0_off2_inb i) xo4 _

end Later

section First

variable (c : Dev nD) (i : grid0.Coords)
    (arg2 : Memref sig .tc .vmem S1024x1024 .f32) (harg2 : arg2.IsWhole) (arg3 : Memref sig .tc .vmem S1x1024 .i32) (harg3 : arg3.IsWhole)
    (arg4 : Memref sig .tc .vmem S1x1024 .i32) (harg4 : arg4.IsWhole) (arg5 : Memref sig .tc .vmem S1x8192 .f32) (harg5 : arg5.IsWhole)
    (arg6 : Memref sig .tc .vmem S1x8192 .f32) (harg6 : arg6.IsWhole) (hc0 : cond0 i)
    (x0 : Vec F S1024x1024 .f32) (x1 : Vec F S1x1024 .i32) (x2 : Vec F S1x1024 .i32)

/-- The first point's two stores into the column maxima: the fill, then the stretch, read from what the fill left. -/
theorem runFirst_pos :
    (runFirst c i arg2 harg2 arg3 harg3 arg4 harg4 arg5 harg5 arg6 harg6 hc0 x0 x1 x2).1
      = [⟨rPos i, k0_pay5 x1 x2 x0 (View.ld (arg5.view.read (Elt F) (arg5.view.writes (Elt F) arg5.view.junk
            [⟨Rect.unit (s := S1x8192) ![0, 0] S1x8192.size inb_S1x8192_S1x8192_0_0, k0_pay2 (F := F)⟩])) (rPos i))⟩,
         ⟨Rect.unit (s := S1x8192) ![0, 0] S1x8192.size inb_S1x8192_S1x8192_0_0, k0_pay2 (F := F)⟩] := by
  unfold runFirst
  dsimp only
  sl_unfold_words
  simp only [View.readAt_eq_ld, harg2.read_unread, harg3.read_unread, harg4.read_unread,
    View.ld_unit_zero (S := S1x1024) zero2, View.ld_unit_zero (S := S1024x1024) zero2]
  rfl

/-- The first point's two stores into the row minima. -/
theorem runFirst_neg :
    (runFirst c i arg2 harg2 arg3 harg3 arg4 harg4 arg5 harg5 arg6 harg6 hc0 x0 x1 x2).2.1
      = [⟨rNeg i, k0_pay1 (k0_pay6 x1 x2 x0 (View.ld (arg6.view.read (Elt F) (arg6.view.writes (Elt F) arg6.view.junk
            [⟨Rect.unit (s := S1x8192) ![0, 0] S1x8192.size inb_S1x8192_S1x8192_0_0, k0_pay3 (F := F)⟩])) (rNeg i)))⟩,
         ⟨Rect.unit (s := S1x8192) ![0, 0] S1x8192.size inb_S1x8192_S1x8192_0_0, k0_pay3 (F := F)⟩] := by
  unfold runFirst
  dsimp only
  sl_unfold_words
  simp only [View.readAt_eq_ld, harg2.read_unread, harg3.read_unread, harg4.read_unread,
    View.ld_unit_zero (S := S1x1024) zero2, View.ld_unit_zero (S := S1024x1024) zero2]
  rfl

/-- So the first point leaves the column maxima one step on from the zero fill, whatever the buffer held, -/
theorem first_leaves_pos (f : arg5.view.ty.Contents (Elt F)) :
    arg5.view.read (Elt F) (arg5.view.writes (Elt F) f
      (runFirst c i arg2 harg2 arg3 harg3 arg4 harg4 arg5 harg5 arg6 harg6 hc0 x0 x1 x2).1) = stepPos i x1 x2 x0 (k0_pay2 (F := F)) := by
  rw [runFirst_pos, read_fill]; exact read_put_fill arg5 f (k0_off1 i) (k0_off1_inb i) _ _

/-- and the row minima one step on from the +∞ fill. -/
theorem first_leaves_neg (f : arg6.view.ty.Contents (Elt F)) :
    arg6.view.read (Elt F) (arg6.view.writes (Elt F) f
      (runFirst c i arg2 harg2 arg3 harg3 arg4 harg4 arg5 harg5 arg6 harg6 hc0 x0 x1 x2).2.1) = stepNeg i x1 x2 x0 (k0_pay3 (F := F)) := by
  rw [runFirst_neg, read_fill]; exact read_put_fill arg6 f (k0_off2 i) (k0_off2_inb i) _ _

end First

end Cert.Kernel.Hand

end
-- ==== Proof.BOuts.lean ====
/-
  The accumulation, point by point. With the region-entry contents of the buffers given (`V`), each window's block
  at a point is read off its array, and the pair of accumulators after point `n` is one step applied to the pair
  after point `n - 1`; the first point's step starts from the two fills (zero, +∞).
-/
import proofs.«164058_j4466765988650_1_alg».proof.Proof.BStep

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at their literal types: the tile of distances, the rows' identities, the columns'. -/
abbrev xb0 (c : Dev nD) (t : Fin cfg0.N) : Vec F S1024x1024 .f32 := iblk V c 0 t
abbrev xb1 (c : Dev nD) (t : Fin cfg0.N) : Vec F S1x1024 .i32 := iblk V c 1 t
abbrev xb2 (c : Dev nD) (t : Fin cfg0.N) : Vec F S1x1024 .i32 := iblk V c 2 t

/-- The column maxima and the row minima after the body at position `n`. -/
def outs (c : Dev nD) : (n : ℕ) → n < cfg0.N → Vec F S1x8192 .f32 × Vec F S1x8192 .f32
  | 0, hn =>
    (stepPos (grid0.coords ⟨0, hn⟩) (xb1 V c ⟨0, hn⟩) (xb2 V c ⟨0, hn⟩) (xb0 V c ⟨0, hn⟩) (k0_pay2 (F := F)),
     stepNeg (grid0.coords ⟨0, hn⟩) (xb1 V c ⟨0, hn⟩) (xb2 V c ⟨0, hn⟩) (xb0 V c ⟨0, hn⟩) (k0_pay3 (F := F)))
  | n + 1, hn =>
    (stepPos (grid0.coords ⟨n + 1, hn⟩) (xb1 V c ⟨n + 1, hn⟩) (xb2 V c ⟨n + 1, hn⟩) (xb0 V c ⟨n + 1, hn⟩) (outs c n (Nat.lt_of_succ_lt hn)).1,
     stepNeg (grid0.coords ⟨n + 1, hn⟩) (xb1 V c ⟨n + 1, hn⟩) (xb2 V c ⟨n + 1, hn⟩) (xb0 V c ⟨n + 1, hn⟩) (outs c n (Nat.lt_of_succ_lt hn)).2)

/-- `outs` at the first point. -/
theorem outs_first (c : Dev nD) (t : Fin cfg0.N) (h0 : t.val = 0) :
    outs V c t.val t.isLt =
      (stepPos (grid0.coords t) (xb1 V c t) (xb2 V c t) (xb0 V c t) (k0_pay2 (F := F)),
       stepNeg (grid0.coords t) (xb1 V c t) (xb2 V c t) (xb0 V c t) (k0_pay3 (F := F))) := by
  obtain ⟨n, hn⟩ := t
  cases n with
  | zero => rfl
  | succ n => exact absurd h0 (Nat.succ_ne_zero n)

/-- `outs` at a later point: one step over what the point before left. -/
theorem outs_later (c : Dev nD) (t : Fin cfg0.N) (h0 : ¬t.val = 0) :
    outs V c t.val t.isLt =
      (stepPos (grid0.coords t) (xb1 V c t) (xb2 V c t) (xb0 V c t) (outs V c (t.val - 1) (Nat.lt_of_le_of_lt (Nat.sub_le _ _) t.isLt)).1,
       stepNeg (grid0.coords t) (xb1 V c t) (xb2 V c t) (xb0 V c t) (outs V c (t.val - 1) (Nat.lt_of_le_of_lt (Nat.sub_le _ _) t.isLt)).2) := by
  obtain ⟨n, hn⟩ := t
  cases n with
  | zero => exact absurd rfl h0
  | succ n => rfl

end Cert.Kernel.Hand

end
-- ==== Proof.BDat.lean ====
/-
  The pipeline's proof data and the body's obligation. The arrays are as the region finds them; after the body at a
  point each input's staging buffer holds its block, the two accumulators' buffers the accumulation so far. An input's
  buffer holds its block at every point, fetched there or not; an accumulator's buffer is not written back before the
  last point, so at a later point it holds what the point before left. The body at a point is then the first-point run
  or the later-point run, whichever the point's coordinates select.
-/
import proofs.«164058_j4466765988650_1_alg».proof.Proof.BPieces
import proofs.«164058_j4466765988650_1_alg».proof.Proof.BOuts

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it to the body, and its wholeness. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8192 .f32 := win0_4.stage (cfg0.slots t 4)
abbrev hs4 (t : Fin cfg0.N) : (ms4 t).IsWhole := hstage0_4 ((cfg0.slots t 4).cast nbuf0_4)

/-- The proof data on core `c`: the arrays as the region finds them; after the body each input's buffer at its block,
    the accumulators' at the accumulation so far; the two windows on the identities' array hold it at the two halves of
    the full share, the distances' window at the full share; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outs V c t.val t.isLt).1
    | ⟨4, _⟩ => (outs V c t.val t.isLt).2
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outs V c t.val t.isLt).1 := by dsimp only [dat]
theorem after_4 (c : Dev nD) (t : Fin cfg0.N) : (dat V c).after 4 t = (outs V c t.val t.isLt).2 := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- At a later point the column maxima's buffer holds what the point before left: it is written back at the last point only. -/
theorem before_3_later (c : Dev nD) (t : Fin cfg0.N) (h0 : ¬t.val = 0) (d) :
    (dat V c).before 3 t d = (outs V c (t.val - 1) (Nat.lt_of_le_of_lt (Nat.sub_le _ _) t.isLt)).1 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dat]

/-- Likewise the row minima's buffer. -/
theorem before_4_later (c : Dev nD) (t : Fin cfg0.N) (h0 : ¬t.val = 0) (d) :
    (dat V c).before 4 t d = (outs V c (t.val - 1) (Nat.lt_of_le_of_lt (Nat.sub_le _ _) t.isLt)).2 := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat]

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the inputs' buffers hold their blocks; at the first point the first-point run applies, at a
    later one the later-point run over what the point before left; the invariant passes through unread and the core
    owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  by_cases h0 : t.val = 0
  · rw [outs_first V c t h0]
    iintro ⟨HΦ, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) ((hcond0 t).mpr h0) (xb0 V c t) (xb1 V c t) (xb2 V c t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro
      exact first_leaves_pos c (grid0.coords t) (ms0 t) (hs0 t) (ms1 t) (hs1 t) (ms2 t) (hs2 t) (ms3 t) (hs3 t) (ms4 t) (hs4 t) ((hcond0 t).mpr h0) (xb0 V c t) (xb1 V c t) (xb2 V c t) e3
    · unfold owns; iexists _; isplitr
      swap; · iexact H4
      ipureintro
      exact first_leaves_neg c (grid0.coords t) (ms0 t) (hs0 t) (ms1 t) (hs1 t) (ms2 t) (hs2 t) (ms3 t) (hs3 t) (ms4 t) (hs4 t) ((hcond0 t).mpr h0) (xb0 V c t) (xb1 V c t) (xb2 V c t) e4
  · rw [outs_later V c t h0]
    simp only [before_3_later V c t h0, before_4_later V c t h0]
    iintro ⟨HΦ, Ho, ⟨%d0, H0⟩, ⟨%d1, H1⟩, ⟨%d2, H2⟩, ⟨%d3, H3⟩, ⟨%d4, H4⟩⟩
    iapply ((runLater c (grid0.coords t) (ms0 t) (hs0 t) (ms1 t) (hs1 t) (ms2 t) (hs2 t) (ms3 t) (hs3 t) (ms4 t) (hs4 t) (fun h => h0 ((hcond0 t).mp h)) (xb0 V c t) (xb1 V c t) (xb2 V c t)
      (outs V c (t.val - 1) (Nat.lt_of_le_of_lt (Nat.sub_le _ _) t.isLt)).1 (outs V c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro
      exact later_leaves_pos c (grid0.coords t) (ms0 t) (hs0 t) (ms1 t) (hs1 t) (ms2 t) (hs2 t) (ms3 t) (hs3 t) (ms4 t) (hs4 t) (fun h => h0 ((hcond0 t).mp h)) (xb0 V c t) (xb1 V c t) (xb2 V c t) _ _
    · unfold owns; iexists _; isplitr
      swap; · iexact H4
      ipureintro
      exact later_leaves_neg c (grid0.coords t) (ms0 t) (hs0 t) (ms1 t) (hs1 t) (ms2 t) (hs2 t) (ms3 t) (hs3 t) (ms4 t) (hs4 t) (fun h => h0 ((hcond0 t).mp h)) (xb0 V c t) (xb1 V c t) (xb2 V c t) _ _

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hand

end
-- ==== Proof.BLaunch.lean ====
/-
  The launch. @main is a host stretch (the identities reshaped to one row), the kernel region, and two host stretches
  (the two results reshaped and subtracted; the softplus chain). Between items the core holds every unscoped buffer
  whole at a known valuation; the region takes its four arrays out of them — the identities' array, read by two
  windows, at the two halves of its full share — and puts them back at its exit, the two result arrays at what the
  pipeline leaves. So every weakly fair execution terminates and every final memory is the last valuation.
-/
import proofs.«164058_j4466765988650_1_alg».proof.Proof.BDat
import Idealize.ShloMosaic.Lib.Pipeline.Frame
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The region's arrays among the unscoped buffers -/

section Arrays

variable (V : (c : Dev nD) → (b : Ref sig .tc) → Buf (Elt F) ((c : Thread nD τ).loc b))

/-- The four buffers behind the five windows' arrays, one by one. -/
theorem arrBufs_chain (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v0) ↦{fullShare} V' main_v0)
          ∗ (((c : Thread nD τ).loc main_v1_0) ↦{fullShare} V' main_v1_0) ∗ (((c : Thread nD τ).loc main_v1_1) ↦{fullShare} V' main_v1_1)) := by
  unfold Pipeline.arrBufs
  exact bigSep_eq_bigSepL_of_eq [main_arg0, main_v0, main_v1_0, main_v1_1] (by decide) (by decide) _

/-- The pipeline's arrays, window by window, each at its share. -/
theorem arrays_chain (c : Dev nD) (G : (w : Fin cfg0.W) → Buf (Elt F) ((cfg0.win w).arr.view.loc (c : Thread nD τ))) :
    ((dat V c).arrays G : sProp 𝕄)
      = iprop((((c : Thread nD τ).loc main_arg0) ↦{fullShare} G 0) ∗ (((c : Thread nD τ).loc main_v0) ↦{fullShare.left} G 1)
          ∗ (((c : Thread nD τ).loc main_v0) ↦{fullShare.right} G 2)
          ∗ (((c : Thread nD τ).loc main_v1_0) ↦{fullShare} G 3) ∗ (((c : Thread nD τ).loc main_v1_1) ↦{fullShare} G 4)) := by
  unfold Dat.arrays
  rw [bigSep_W0, (arr_whole0 0).set_eq_univ, (arr_whole0 1).set_eq_univ, (arr_whole0 3).set_eq_univ, (arr_whole0 4).set_eq_univ]
  rfl

/-- ENTRY: the four buffers whole at `V` make the pipeline's arrays at their entry contents, the identities' array
    split between its two windows. -/
theorem arrays_in (c : Dev nD) :
    (Pipeline.arrBufs (Ix := Unit) (Name := ℕ) (U := UR sig nD τ) (Lvl := ℕ) spec0 c (V c) : sProp 𝕄) ⊢ (dat V c).arrays (dat V c).A := by
  rw [arrBufs_chain, arrays_chain]
  iintro ⟨H0, Hv, H3, H4⟩
  ihave Hs := (pointsTo_share (PosShare.mem_left_op_right fullShare)).1 $$ Hv
  icases Hs with ⟨Hl, Hr⟩
  isplitl [H0]; · iexact H0
  isplitl [Hl]; · iexact Hl
  isplitl [Hr]; · iexact Hr
  isplitl [H3]; · iexact H3
  iexact H4

/-- EXIT: the pipeline's arrays at contents `G` make the four buffers whole at any `V'` that has them there, the
    two halves of the identities' array joined. -/
theorem arrays_out (c : Dev nD) (G : (w : Fin cfg0.W) → Buf (Elt F) ((cfg0.win w).arr.view.loc (c : Thread nD τ)))
    (V' : (b : Ref sig .tc) → Buf (Elt F) ((c : Thread nD τ).loc b))
    (h0 : G 0 = V' main_arg0) (h1 : G 1 = V' main_v0) (h2 : G 2 = V' main_v0) (h3 : G 3 = V' main_v1_0) (h4 : G 4 = V' main_v1_1) :
    ((dat V c).arrays G : sProp 𝕄) ⊢ Pipeline.arrBufs (Ix := Unit) (Name := ℕ) (U := UR sig nD τ) (Lvl := ℕ) spec0 c V' := by
  rw [arrBufs_chain, arrays_chain, h0, h1, h2, h3, h4]
  iintro ⟨H0, Hl, Hr, H3, H4⟩
  isplitl [H0]; · iexact H0
  isplitl [Hl Hr]
  · iapply (pointsTo_share (PosShare.mem_left_op_right fullShare)).2
    isplitl [Hl] <;> iassumption
  isplitl [H3]; · iexact H3
  iexact H4

end Arrays

/-! ## The buffers' contents between items -/

variable (m : (ℓ : Loc nD τ sig) → Buf (Elt F) ℓ) (ρ : Dev nD → PrngReg)

/-- Core `c`'s unscoped buffers at launch; -/
abbrev W0 : Dev nD → Valuation τ sig (Elt F) := fun c b => m ((c : Dev nD), b)
/-- after the identities are reshaped to one row (the region's entry); -/
abbrev W1 : Dev nD → Valuation τ sig (Elt F) := fun c => StableHlo.after hostOps0 (W0 m c)
/-- the same read at the TensorCore's references (what the proof data take); -/
abbrev V1 : (c : Dev nD) → (b : Ref sig .tc) → Buf (Elt F) ((c : Thread nD τ).loc b) := fun c b => W1 m c b
/-- at the region's exit: the two result arrays at what the pipeline leaves, every other buffer as entered; -/
def W2 (c : Dev nD) : Valuation τ sig (Elt F) :=
  Function.update (Function.update (W1 m c) main_v1_0 ((dat (V1 m) c).arrAt 3 cfg0.N)) main_v1_1 ((dat (V1 m) c).arrAt 4 cfg0.N)
abbrev V2 : (c : Dev nD) → (b : Ref sig .tc) → Buf (Elt F) ((c : Thread nD τ).loc b) := fun c b => W2 m c b
/-- after the results are reshaped and subtracted; -/
abbrev W3 : Dev nD → Valuation τ sig (Elt F) := fun c => StableHlo.after hostOps1 (W2 m c)
/-- after the softplus chain: the end. -/
abbrev W4 : Dev nD → Valuation τ sig (Elt F) := fun c => StableHlo.after hostOps1_1 (W3 m c)

theorem W2_v1_1 (c : Dev nD) : W2 m c main_v1_1 = (dat (V1 m) c).arrAt 4 cfg0.N := by
  unfold W2; exact Function.update_self ..

theorem W2_v1_0 (c : Dev nD) : W2 m c main_v1_0 = (dat (V1 m) c).arrAt 3 cfg0.N := by
  unfold W2
  rw [Function.update_of_ne (StableHlo.devRef_ne_of_ne (by decide) : (Proc.devRef .tc main_v1_0 : DevRef τ sig) ≠ Proc.devRef .tc main_v1_1)]
  exact Function.update_self ..

theorem W2_of_ne (c : Dev nD) (b : Ref sig .tc) (h0 : b ≠ main_v1_0) (h1 : b ≠ main_v1_1) : W2 m c b = W1 m c b := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as an item over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the generator register. -/
abbrev Tₙ (c : Dev nD) : sProp 𝕄 := iprop(StableHlo.held (c : Thread nD τ) (Pipeline.ucRefs τ sig) (W4 m c) ∗ ∃ r, prngReg c r)

/-! ## The region as an item -/

set_option backward.isDefEq.respectTransparency.types false in
/-- The kernel region over the thread state: entered from every unscoped buffer at `W1`, left at `W2`. Its arrays
    are taken out of the unscoped buffers (the identities' array at two half shares) and put back at the exit
    contents; the generator register goes into the region's invariant and comes back; nothing owed; no semaphore of
    the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((pdats m 0 c).arrays (pdats m 0 c).A
            ∗ Pipeline.unscopedRest (Ix := Unit) (Name := ℕ) (U := UR sig nD τ) (Lvl := ℕ) spec0 c (V1 m c)) := by
      rw [← Pipeline.unscopedBufs_held (Ix := Unit) (Name := ℕ) (U := UR sig nD τ) (Lvl := ℕ) c (W1 m c),
        Pipeline.unscopedBufs_split₀ cfgs 0 winFacts₀0.arr_unscoped c (V1 m c)]
      exact sep_mono (arrays_in (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        Pipeline.unscopedBufs_split₀ cfgs 0 winFacts₀0.arr_unscoped c (V2 m c)]
      refine sep_mono (arrays_out (V1 m) c _ (V2 m c) ?_ ?_ ?_ ?_ ?_) (Entails.of_eq ?_)
      · exact ((dat (V1 m) c).arrAt_in 0 rfl _).trans ((A_eq (V1 m) c 0).trans (W2_of_ne m c main_arg0 (by decide) (by decide)).symm)
      · exact ((dat (V1 m) c).arrAt_in 1 rfl _).trans ((A_eq (V1 m) c 1).trans (W2_of_ne m c main_v0 (by decide) (by decide)).symm)
      · exact ((dat (V1 m) c).arrAt_in 2 rfl _).trans ((A_eq (V1 m) c 2).trans (W2_of_ne m c main_v0 (by decide) (by decide)).symm)
      · exact (W2_v1_0 m c).symm
      · exact (W2_v1_1 m c).symm
      · unfold Pipeline.unscopedRest
        exact bigSep_congr fun b hb => by
          have hb' := (Finset.mem_sdiff.mp hb).2
          rw [show V2 m c b = V1 m c b from W2_of_ne m c b
            (fun e => hb' (Finset.mem_image.mpr ⟨3, Finset.mem_univ _, e.symm⟩))
            (fun e => hb' (Finset.mem_image.mpr ⟨4, Finset.mem_univ _, e.symm⟩))]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)) ]

/-- @main is the run of the items. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.BKeep.lean ====
/-
  No item of @main writes an argument array: the first host stretch writes the reshaped identities, the region its two
  result arrays, the later stretches their own results. So the two arguments end at their launch contents.
-/
import proofs.«164058_j4466765988650_1_alg».proof.Proof.BLaunch

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

/-! ## What each host stretch writes -/

/-- The first stretch writes the reshaped identities; -/
abbrev written0 : List (Ref sig .tc) := [main_v0]
/-- the second the two reshaped results and their difference; -/
abbrev written1 : List (Ref sig .tc) := [main_v2, main_v3, main_v4]
/-- the third the softplus chain's fourteen values. -/
abbrev written1_1 : List (Ref sig .tc) :=
  [main_call0_cst, main_call0_v0, main_call0_v1, main_call0_v2, main_call0_v3, main_call0_v4, main_call0_v5, main_call0_v6,
    main_call0_v7, main_call0_v8, main_call0_v9, main_call0_v10, main_call0_v11, main_v5]

/-- One reference of a list, as a device buffer, is among the list's device buffers. -/
theorem single_sub {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-- Each operation of a stretch writes its one result, which the stretch's list names. -/
theorem hostOps0_writes : (hostOps0 : List (HloOp τ sig (Elt F))).Forall fun op =>
    op.writes ⊆ (written0.map (Proc.devRef (τ := τ) .tc)).toFinset :=
  single_sub main_v0 (by decide)

theorem hostOps1_writes : (hostOps1 : List (HloOp τ sig (Elt F))).Forall fun op =>
    op.writes ⊆ (written1.map (Proc.devRef (τ := τ) .tc)).toFinset :=
  ⟨single_sub main_v2 (by decide), single_sub main_v3 (by decide), single_sub main_v4 (by decide)⟩

theorem hostOps1_1_writes : (hostOps1_1 : List (HloOp τ sig (Elt F))).Forall fun op =>
    op.writes ⊆ (written1_1.map (Proc.devRef (τ := τ) .tc)).toFinset :=
  ⟨single_sub main_call0_cst (by decide), single_sub main_call0_v0 (by decide), single_sub main_call0_v1 (by decide),
    single_sub main_call0_v2 (by decide), single_sub main_call0_v3 (by decide), single_sub main_call0_v4 (by decide),
    single_sub main_call0_v5 (by decide), single_sub main_call0_v6 (by decide), single_sub main_call0_v7 (by decide),
    single_sub main_call0_v8 (by decide), single_sub main_call0_v9 (by decide), single_sub main_call0_v10 (by decide),
    single_sub main_call0_v11 (by decide), single_sub main_v5 (by decide)⟩

variable (m : (ℓ : Loc nD τ sig) → Buf (Elt F) ℓ)

/-- The distances end as launched. -/
theorem W4_arg0 (c : Dev nD) : W4 m c main_arg0 = m ((c : Thread nD τ).loc main_arg0) := by
  calc W4 m c main_arg0
    _ = W3 m c main_arg0 := StableHlo.after_of_writes_sub hostOps1_1 (W3 m c) hostOps1_1_writes (by decide)
    _ = W2 m c main_arg0 := StableHlo.after_of_writes_sub hostOps1 (W2 m c) hostOps1_writes (by decide)
    _ = W1 m c main_arg0 := W2_of_ne m c main_arg0 (by decide) (by decide)
    _ = W0 m c main_arg0 := StableHlo.after_of_writes_sub hostOps0 (W0 m c) hostOps0_writes (by decide)
    _ = m ((c : Thread nD τ).loc main_arg0) := rfl

/-- The identities end as launched. -/
theorem W4_arg1 (c : Dev nD) : W4 m c main_arg1 = m ((c : Thread nD τ).loc main_arg1) := by
  calc W4 m c main_arg1
    _ = W3 m c main_arg1 := StableHlo.after_of_writes_sub hostOps1_1 (W3 m c) hostOps1_1_writes (by decide)
    _ = W2 m c main_arg1 := StableHlo.after_of_writes_sub hostOps1 (W2 m c) hostOps1_writes (by decide)
    _ = W1 m c main_arg1 := W2_of_ne m c main_arg1 (by decide) (by decide)
    _ = W0 m c main_arg1 := StableHlo.after_of_writes_sub hostOps0 (W0 m c) hostOps0_writes (by decide)
    _ = m ((c : Thread nD τ).loc main_arg1) := rfl

end Cert.Kernel.Hand

end
-- ==== Proof.BMain.lean ====
/-
  The kernel's run at the word level: every weakly fair execution terminates and leaves the two argument arrays as
  they were — the launch's post, every unscoped buffer at the last valuation, read at the two arguments, which no item
  of @main writes.
-/
import proofs.«164058_j4466765988650_1_alg».proof.Defs
import proofs.«164058_j4466765988650_1_alg».proof.Proof.Gen.Kernel
import proofs.«164058_j4466765988650_1_alg».proof.Proof.BLaunch
import proofs.«164058_j4466765988650_1_alg».proof.Proof.BKeep

noncomputable section

namespace Cert.Kernel.Hand

open Idealize.ShloMosaic Idealize.ShloMosaic.TcCoe Idealize.SL.Sem
open Cert.Kernel

variable {F : FTy → Type} [FloatOps F]

/-- The frame, at any float instance. -/
theorem frame (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.Kernel.defs (F := F)) _ _).mono (fun _ h c =>
    ⟨(h c _ (mem_uc main_arg0 (by decide))).trans (W4_arg0 m c), (h c _ (mem_uc main_arg1 (by decide))).trans (W4_arg1 m c)⟩) (run_all m ρ)

end Cert.Kernel.Hand

end
-- ==== Proof.Spec.lean ====
/-
  What both programs compute, stated once over the two argument arrays: a square array of distances `x` and a
  vector of identities `p`, both of extent 8192.

  Entry (r, c) is a POSITIVE pair when row r and column c carry the same identity. Per column c the kernel keeps the
  largest distance over the positive pairs of that column, never below zero (its running maximum starts from zero);
  the reference takes the maximum over the rows of the distance multiplied by the 0/1 indicator of a positive pair.
  Per row r both take the smallest distance over the pairs that are NOT positive (a positive pair counts as +∞).
  The result at k is a fixed elementwise function (`softplusV`) of the difference of the two at k.
  The two "furthest positive" values can differ only in a column all of whose pairs are positive with negative
  distances; then every identity is the same, row k has no negative pair, its minimum is +∞ and both differences are
  -∞ (`Cert.Spec.Math` proves this).
-/
import Idealize.ShloMosaic.PureOps.Ideal
import Idealize.ShloMosaic.Lib.ValueIdx

noncomputable section

namespace Cert.Spec

open Idealize.ShloMosaic Idealize.ShloMosaic.ValueIdx

abbrev SNN : Shape := ⟨2, ![8192, 8192]⟩
abbrev SN : Shape := ⟨1, ![8192]⟩
abbrev S0 : Shape := ⟨0, ![]⟩

/-- The distances, as extended reals. -/
abbrev Dist : Type := SNN.Idx → EReal
/-- The identities, as 32-bit words. -/
abbrev Ids : Type := SN.Idx → BitVec 32

/-- Row `r` and column `c` carry the same identity. -/
def same (p : Ids) (r c : Fin 8192) : Prop := p (ix1 r) = p (ix1 c)

instance (p : Ids) (r c : Fin 8192) : Decidable (same p r c) := by unfold same; infer_instance

/-- The kernel's term of the column maximum: the distance on a positive pair, zero elsewhere. -/
def posTerm (x : Dist) (p : Ids) (r c : Fin 8192) : EReal := if same p r c then x (ix2 r c) else 0
/-- The reference's term of the column maximum: the distance times the indicator of a positive pair. -/
def refPosTerm (x : Dist) (p : Ids) (r c : Fin 8192) : EReal := x (ix2 r c) * (if same p r c then 1 else 0)
/-- The term of the row minimum, the same in both programs: +∞ on a positive pair, the distance elsewhere. -/
def negTerm (x : Dist) (p : Ids) (r c : Fin 8192) : EReal := if same p r c then ⊤ else x (ix2 r c)

/-- The kernel's furthest positive of column `c`: the maximum over the rows, from zero. -/
def fposK (x : Dist) (p : Ids) (c : Fin 8192) : EReal := max 0 (Finset.univ.sup fun r : Fin 8192 => posTerm x p r c)
/-- The reference's furthest positive of column `c`: the maximum over the rows, from -∞. -/
def fposR (x : Dist) (p : Ids) (c : Fin 8192) : EReal := Finset.univ.sup fun r : Fin 8192 => refPosTerm x p r c
/-- The closest negative of row `r`: the minimum over the columns, from +∞. -/
def fneg (x : Dist) (p : Ids) (r : Fin 8192) : EReal := Finset.univ.inf fun c : Fin 8192 => negTerm x p r c

/-- The same three as vectors of extent 8192. -/
def posKV (x : Dist) (p : Ids) : FVec Ideal SN .f32 := fun k => fposK x p (k 0)
def posRV (x : Dist) (p : Ids) : FVec Ideal SN .f32 := fun k => fposR x p (k 0)
def negV (x : Dist) (p : Ids) : FVec Ideal SN .f32 := fun k => fneg x p (k 0)

theorem bcast0 : S0.BroadcastsInDim SN (![] : Fin 0 → Fin SN.rank) := by decide

/-- The elementwise tail both programs apply to the difference `d`: max(d, 0) + log(1 + exp(-|d - 0|)), behind the
    guard `d - 0 ≠ d - 0` that selects `d + 0` (never taken on the extended reals). Kept as the operations' own
    composition: nothing in the proof opens it. -/
def softplusV (d : FVec Ideal SN .f32) : FVec Ideal SN .f32 :=
  let z : FVec Ideal SN .f32 := broadcastInDim SN ![] bcast0 (constant (F := Ideal) S0 .f32 0x00000000#32)
  let e : FVec Ideal SN .f32 := subf d z
  select (cmpf .une e e) (addf d z)
    (addf (maximumf d z) (Host.log1p (F := Ideal) (Host.exp (F := Ideal) (Host.negf (F := Ideal) (Host.absf (F := Ideal) e)))))

/-- The kernel's result, and the reference's. -/
def outK (x : Dist) (p : Ids) : FVec Ideal SN .f32 := softplusV (subf (posKV x p) (negV x p))
def outR (x : Dist) (p : Ids) : FVec Ideal SN .f32 := softplusV (subf (posRV x p) (negV x p))

end Cert.Spec

end
-- ==== Proof.KRun.lean ====
/-
  The kernel body run once per control case, on any whole staging memrefs.

  At the first grid point the body fills both accumulators whole (the column maxima with zero, the row minima with +∞)
  and then updates one 1024-wide stretch of each; at every later point it only updates the two stretches. In both
  cases the three input buffers are read and left as they were. What the two accumulator buffers hold afterwards is
  stated as the stores found by the run (last first) written over what the buffers held when the body started.
-/
import proofs.«164058_j4466765988650_1_alg».proof.Proof.Gen.KernelIdeal.Launch
import proofs.«164058_j4466765988650_1_alg».proof.Proof.Gen.KernelIdeal.Skeleton
import proofs.«164058_j4466765988650_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinates: both coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- A later point: the two accumulators are read at their stretches and updated there. -/
noncomputable def runLater (c : Dev nD) (i : grid0.Coords)
    (arg2 : Memref sig .tc .vmem S1024x1024 .f32) (harg2 : arg2.IsWhole) (arg3 : Memref sig .tc .vmem S1x1024 .i32) (harg3 : arg3.IsWhole)
    (arg4 : Memref sig .tc .vmem S1x1024 .i32) (harg4 : arg4.IsWhole) (arg5 : Memref sig .tc .vmem S1x8192 .f32) (harg5 : arg5.IsWhole)
    (arg6 : Memref sig .tc .vmem S1x8192 .f32) (harg6 : arg6.IsWhole) (hc0 : ¬cond0 i)
    (x0 : Vec F S1024x1024 .f32) (x1 : Vec F S1x1024 .i32) (x2 : Vec F S1x1024 .i32) (xo3 xo4 : Vec F S1x8192 .f32) :
    Σ' (L3 : List (View.Piece (Elt F) S1x8192 .f32)), { L4 : List (View.Piece (Elt F) S1x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo3) L3)
                ∗ (arg6.view.loc (c : Thread nD τ) ↦[arg6.view.set]{fullShare} arg6.view.writes (Elt F) (harg6.unread xo4) L4)) -∗ K ⟨⟩))
          ⊢ wp frame (wpE (defs₀ (F := F)) Variants.none c none) E (cc0__batchhard_kernel i arg2 harg2 arg3 harg3 arg4 harg4 arg5 harg5 arg6 harg6) K } := by
  refine ⟨?_, ?_, fun E K => ?run⟩
  case run =>
    simp only [cc0__batchhard_kernel_eq_skeleton]; unfold cc0__batchhard_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexact H3
    iexact H4

set_option maxHeartbeats 1000000 in
/-- The first point: both accumulators are filled whole, then read at their stretches and updated there; what they
    held before is overwritten. -/
noncomputable def runFirst (c : Dev nD) (i : grid0.Coords)
    (arg2 : Memref sig .tc .vmem S1024x1024 .f32) (harg2 : arg2.IsWhole) (arg3 : Memref sig .tc .vmem S1x1024 .i32) (harg3 : arg3.IsWhole)
    (arg4 : Memref sig .tc .vmem S1x1024 .i32) (harg4 : arg4.IsWhole) (arg5 : Memref sig .tc .vmem S1x8192 .f32) (harg5 : arg5.IsWhole)
    (arg6 : Memref sig .tc .vmem S1x8192 .f32) (harg6 : arg6.IsWhole) (hc0 : cond0 i)
    (x0 : Vec F S1024x1024 .f32) (x1 : Vec F S1x1024 .i32) (x2 : Vec F S1x1024 .i32) :
    Σ' (L3 : List (View.Piece (Elt F) S1x8192 .f32)), { L4 : List (View.Piece (Elt F) S1x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__batchhard_kernel i arg2 harg2 arg3 harg3 arg4 harg4 arg5 harg5 arg6 harg6) K } := by
  refine ⟨?_, ?_, fun E K => ?run⟩
  case run =>
    simp only [cc0__batchhard_kernel_eq_skeleton]; unfold cc0__batchhard_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Hand

end
-- ==== Proof.KStep.lean ====
/-
  One grid point's effect on the two accumulators, as functions. The body replaces one 1024-wide stretch of the
  column maxima — the columns of the point's column tile — by what it computes from the stretch's old contents and
  the point's three input blocks, and likewise one stretch of the row minima — the rows of the point's row tile;
  at the first point the stretches are read from the fills (zero, +∞) it has just stored. What either run leaves in a
  whole accumulator buffer, read back, is that function of what the buffer held.
-/
import proofs.«164058_j4466765988650_1_alg».proof.Proof.KRun
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The stretch of the column maxima the point updates, and the stretch of the row minima. -/
abbrev rPos (i : grid0.Coords) : Rect S1x8192 := Rect.unit (s := S1x8192) (k0_off1 i) S1x1024.size (k0_off1_inb i)
abbrev rNeg (i : grid0.Coords) : Rect S1x8192 := Rect.unit (s := S1x8192) (k0_off2 i) S1x1024.size (k0_off2_inb i)

/-- `a` with the 1024-wide stretch at offsets `off` replaced by `w`. -/
def putAt (off : Fin 2 → ℕ) (a : Vec F S1x8192 .f32) (w : Vec F S1x1024 .f32) : Vec F S1x8192 .f32 := fun y =>
  if h : ∀ b, off b ≤ (y b).val ∧ (y b).val < off b + S1x1024.size b then
    w (Rect.unitLocal (s := S1x8192) (off := off) (size := S1x1024.size) y h)
  else a y

/-- The column maxima after the point's update of `a`, from the rows' identities `x1`, the columns' `x2` and the tile `x0`. -/
def stepPos (i : grid0.Coords) (x1 x2 : Vec F S1x1024 .i32) (x0 : Vec F S1024x1024 .f32) (a : Vec F S1x8192 .f32) : Vec F S1x8192 .f32 :=
  putAt (k0_off1 i) a (k0_pay5 x1 x2 x0 (View.ld a (rPos i)))

/-- The row minima after the point's update of `a`. -/
def stepNeg (i : grid0.Coords) (x1 x2 : Vec F S1x1024 .i32) (x0 : Vec F S1024x1024 .f32) (a : Vec F S1x8192 .f32) : Vec F S1x8192 .f32 :=
  putAt (k0_off2 i) a (k0_pay1 (k0_pay6 x1 x2 x0 (View.ld a (rNeg i))))

/-- One store through a stretch over a whole buffer holding `a`, read back, is `putAt`. -/
theorem read_put (arg : Memref sig .tc .vmem S1x8192 .f32) (harg : arg.IsWhole) (off : Fin 2 → ℕ)
    (inb : ∀ b, off b + S1x1024.size b ≤ S1x8192.size b) (a : Vec F S1x8192 .f32) (w : Vec F S1x1024 .f32) :
    arg.view.read (Elt F) (arg.view.writes (Elt F) (harg.unread a) [⟨Rect.unit (s := S1x8192) off S1x1024.size inb, w⟩]) = putAt off a w := by
  funext y
  rw [View.read_writes_cons_unit arg.view _ inb w [] y rfl]
  unfold putAt
  split
  · rfl
  · rw [View.writes_nil]; exact congrFun (harg.read_unread a) y

/-- The same over any contents, when a whole-buffer store of `a` came first. -/
theorem read_put_fill (arg : Memref sig .tc .vmem S1x8192 .f32) (f : arg.view.ty.Contents (Elt F)) (off : Fin 2 → ℕ)
    (inb : ∀ b, off b + S1x1024.size b ≤ S1x8192.size b) (a : Vec F S1x8192 .f32) (w : Vec F S1x1024 .f32) :
    arg.view.read (Elt F) (arg.view.writes (Elt F) f
      [⟨Rect.unit (s := S1x8192) off S1x1024.size inb, w⟩, ⟨Rect.unit (s := S1x8192) ![0, 0] S1x8192.size inb_S1x8192_S1x8192_0_0, a⟩]) = putAt off a w := by
  funext y
  rw [View.read_writes_cons_unit arg.view _ inb w _ y rfl]
  unfold putAt
  split
  · rfl
  · exact View.read_writes_cons_unit_of_mem arg.view f inb_S1x8192_S1x8192_0_0 a [] y y rfl (fun b => by
      match b with
      | ⟨0, _⟩ => exact (Nat.zero_add _).symm
      | ⟨1, _⟩ => exact (Nat.zero_add _).symm)

end Cert.KernelIdeal.Hand

end
-- ==== Proof.KPieces.lean ====
/-
  The stores the two runs found, opened: at a later point one store per accumulator, through the point's stretch, of
  the body's payload over the three input blocks and the stretch's old contents; at the first point the same store
  after a whole-buffer fill, the stretch read from the fill. So what a run leaves in an accumulator buffer is the
  step function of what it found there (of the fill, at the first point).
-/
import proofs.«164058_j4466765988650_1_alg».proof.Proof.KStep
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

theorem zero2 : (![0, 0] : Fin 2 → ℕ) = fun _ => 0 := by
  funext a; match a with | ⟨0, _⟩ => rfl | ⟨1, _⟩ => rfl

/-- A whole-buffer store of `a`, read back, is `a`, whatever the buffer held. -/
theorem read_fill (arg : Memref sig .tc .vmem S1x8192 .f32) (f : arg.view.ty.Contents (Elt F)) (a : Vec F S1x8192 .f32) :
    arg.view.read (Elt F) (arg.view.writes (Elt F) f
      [⟨Rect.unit (s := S1x8192) ![0, 0] S1x8192.size inb_S1x8192_S1x8192_0_0, a⟩]) = a := by
  funext y
  exact View.read_writes_cons_unit_of_mem arg.view f inb_S1x8192_S1x8192_0_0 a [] y y rfl (fun b => by
    match b with
    | ⟨0, _⟩ => exact (Nat.zero_add _).symm
    | ⟨1, _⟩ => exact (Nat.zero_add _).symm)

section Later

variable (c : Dev nD) (i : grid0.Coords)
    (arg2 : Memref sig .tc .vmem S1024x1024 .f32) (harg2 : arg2.IsWhole) (arg3 : Memref sig .tc .vmem S1x1024 .i32) (harg3 : arg3.IsWhole)
    (arg4 : Memref sig .tc .vmem S1x1024 .i32) (harg4 : arg4.IsWhole) (arg5 : Memref sig .tc .vmem S1x8192 .f32) (harg5 : arg5.IsWhole)
    (arg6 : Memref sig .tc .vmem S1x8192 .f32) (harg6 : arg6.IsWhole) (hc0 : ¬cond0 i)
    (x0 : Vec F S1024x1024 .f32) (x1 : Vec F S1x1024 .i32) (x2 : Vec F S1x1024 .i32) (xo3 xo4 : Vec F S1x8192 .f32)

/-- A later point's one store into the column maxima. -/
theorem runLater_pos :
    (runLater c i arg2 harg2 arg3 harg3 arg4 harg4 arg5 harg5 arg6 harg6 hc0 x0 x1 x2 xo3 xo4).1
      = [⟨rPos i, k0_pay5 x1 x2 x0 (View.ld xo3 (rPos i))⟩] := by
  unfold runLater
  dsimp only
  simp only [View.readAt_eq_ld, harg2.read_unread, harg3.read_unread, harg4.read_unread, harg5.read_unread,
    View.ld_unit_zero (S := S1x1024) zero2, View.ld_unit_zero (S := S1024x1024) zero2]

/-- A later point's one store into the row minima. -/
theorem runLater_neg :
    (runLater c i arg2 harg2 arg3 harg3 arg4 harg4 arg5 harg5 arg6 harg6 hc0 x0 x1 x2 xo3 xo4).2.1
      = [⟨rNeg i, k0_pay1 (k0_pay6 x1 x2 x0 (View.ld xo4 (rNeg i)))⟩] := by
  unfold runLater
  dsimp only
  simp only [View.readAt_eq_ld, harg2.read_unread, harg3.read_unread, harg4.read_unread, harg6.read_unread,
    View.ld_unit_zero (S := S1x1024) zero2, View.ld_unit_zero (S := S1024x1024) zero2]

/-- So a later point leaves the column maxima one step on from what it found, -/
theorem later_leaves_pos :
    arg5.view.read (Elt F) (arg5.view.writes (Elt F) (harg5.unread xo3)
      (runLater c i arg2 harg2 arg3 harg3 arg4 harg4 arg5 harg5 arg6 harg6 hc0 x0 x1 x2 xo3 xo4).1) = stepPos i x1 x2 x0 xo3 := by
  rw [runLater_pos]; exact read_put arg5 harg5 (k0_off1 i) (k0_off1_inb i) xo3 _

/-- and the row minima. -/
theorem later_leaves_neg :
    arg6.view.read (Elt F) (arg6.view.writes (Elt F) (harg6.unread xo4)
      (runLater c i arg2 harg2 arg3 harg3 arg4 harg4 arg5 harg5 arg6 harg6 hc0 x0 x1 x2 xo3 xo4).2.1) = stepNeg i x1 x2 x0 xo4 := by
  rw [runLater_neg]; exact read_put arg6 harg6 (k0_off2 i) (k0_off2_inb i) xo4 _

end Later

section First

variable (c : Dev nD) (i : grid0.Coords)
    (arg2 : Memref sig .tc .vmem S1024x1024 .f32) (harg2 : arg2.IsWhole) (arg3 : Memref sig .tc .vmem S1x1024 .i32) (harg3 : arg3.IsWhole)
    (arg4 : Memref sig .tc .vmem S1x1024 .i32) (harg4 : arg4.IsWhole) (arg5 : Memref sig .tc .vmem S1x8192 .f32) (harg5 : arg5.IsWhole)
    (arg6 : Memref sig .tc .vmem S1x8192 .f32) (harg6 : arg6.IsWhole) (hc0 : cond0 i)
    (x0 : Vec F S1024x1024 .f32) (x1 : Vec F S1x1024 .i32) (x2 : Vec F S1x1024 .i32)

/-- The first point's two stores into the column maxima: the fill, then the stretch, read from what the fill left. -/
theorem runFirst_pos :
    (runFirst c i arg2 harg2 arg3 harg3 arg4 harg4 arg5 harg5 arg6 harg6 hc0 x0 x1 x2).1
      = [⟨rPos i, k0_pay5 x1 x2 x0 (View.ld (arg5.view.read (Elt F) (arg5.view.writes (Elt F) arg5.view.junk
            [⟨Rect.unit (s := S1x8192) ![0, 0] S1x8192.size inb_S1x8192_S1x8192_0_0, k0_pay2 (F := F)⟩])) (rPos i))⟩,
         ⟨Rect.unit (s := S1x8192) ![0, 0] S1x8192.size inb_S1x8192_S1x8192_0_0, k0_pay2 (F := F)⟩] := by
  unfold runFirst
  dsimp only
  sl_unfold_words
  simp only [View.readAt_eq_ld, harg2.read_unread, harg3.read_unread, harg4.read_unread,
    View.ld_unit_zero (S := S1x1024) zero2, View.ld_unit_zero (S := S1024x1024) zero2]
  rfl

/-- The first point's two stores into the row minima. -/
theorem runFirst_neg :
    (runFirst c i arg2 harg2 arg3 harg3 arg4 harg4 arg5 harg5 arg6 harg6 hc0 x0 x1 x2).2.1
      = [⟨rNeg i, k0_pay1 (k0_pay6 x1 x2 x0 (View.ld (arg6.view.read (Elt F) (arg6.view.writes (Elt F) arg6.view.junk
            [⟨Rect.unit (s := S1x8192) ![0, 0] S1x8192.size inb_S1x8192_S1x8192_0_0, k0_pay3 (F := F)⟩])) (rNeg i)))⟩,
         ⟨Rect.unit (s := S1x8192) ![0, 0] S1x8192.size inb_S1x8192_S1x8192_0_0, k0_pay3 (F := F)⟩] := by
  unfold runFirst
  dsimp only
  sl_unfold_words
  simp only [View.readAt_eq_ld, harg2.read_unread, harg3.read_unread, harg4.read_unread,
    View.ld_unit_zero (S := S1x1024) zero2, View.ld_unit_zero (S := S1024x1024) zero2]
  rfl

/-- So the first point leaves the column maxima one step on from the zero fill, whatever the buffer held, -/
theorem first_leaves_pos (f : arg5.view.ty.Contents (Elt F)) :
    arg5.view.read (Elt F) (arg5.view.writes (Elt F) f
      (runFirst c i arg2 harg2 arg3 harg3 arg4 harg4 arg5 harg5 arg6 harg6 hc0 x0 x1 x2).1) = stepPos i x1 x2 x0 (k0_pay2 (F := F)) := by
  rw [runFirst_pos, read_fill]; exact read_put_fill arg5 f (k0_off1 i) (k0_off1_inb i) _ _

/-- and the row minima one step on from the +∞ fill. -/
theorem first_leaves_neg (f : arg6.view.ty.Contents (Elt F)) :
    arg6.view.read (Elt F) (arg6.view.writes (Elt F) f
      (runFirst c i arg2 harg2 arg3 harg3 arg4 harg4 arg5 harg5 arg6 harg6 hc0 x0 x1 x2).2.1) = stepNeg i x1 x2 x0 (k0_pay3 (F := F)) := by
  rw [runFirst_neg, read_fill]; exact read_put_fill arg6 f (k0_off2 i) (k0_off2_inb i) _ _

end First

end Cert.KernelIdeal.Hand

end
-- ==== Proof.KOuts.lean ====
/-
  The accumulation, point by point. With the region-entry contents of the buffers given (`V`), each window's block
  at a point is read off its array, and the pair of accumulators after point `n` is one step applied to the pair
  after point `n - 1`; the first point's step starts from the two fills (zero, +∞).
-/
import proofs.«164058_j4466765988650_1_alg».proof.Proof.KStep

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at their literal types: the tile of distances, the rows' identities, the columns'. -/
abbrev xb0 (c : Dev nD) (t : Fin cfg0.N) : Vec F S1024x1024 .f32 := iblk V c 0 t
abbrev xb1 (c : Dev nD) (t : Fin cfg0.N) : Vec F S1x1024 .i32 := iblk V c 1 t
abbrev xb2 (c : Dev nD) (t : Fin cfg0.N) : Vec F S1x1024 .i32 := iblk V c 2 t

/-- The column maxima and the row minima after the body at position `n`. -/
def outs (c : Dev nD) : (n : ℕ) → n < cfg0.N → Vec F S1x8192 .f32 × Vec F S1x8192 .f32
  | 0, hn =>
    (stepPos (grid0.coords ⟨0, hn⟩) (xb1 V c ⟨0, hn⟩) (xb2 V c ⟨0, hn⟩) (xb0 V c ⟨0, hn⟩) (k0_pay2 (F := F)),
     stepNeg (grid0.coords ⟨0, hn⟩) (xb1 V c ⟨0, hn⟩) (xb2 V c ⟨0, hn⟩) (xb0 V c ⟨0, hn⟩) (k0_pay3 (F := F)))
  | n + 1, hn =>
    (stepPos (grid0.coords ⟨n + 1, hn⟩) (xb1 V c ⟨n + 1, hn⟩) (xb2 V c ⟨n + 1, hn⟩) (xb0 V c ⟨n + 1, hn⟩) (outs c n (Nat.lt_of_succ_lt hn)).1,
     stepNeg (grid0.coords ⟨n + 1, hn⟩) (xb1 V c ⟨n + 1, hn⟩) (xb2 V c ⟨n + 1, hn⟩) (xb0 V c ⟨n + 1, hn⟩) (outs c n (Nat.lt_of_succ_lt hn)).2)

/-- `outs` at the first point. -/
theorem outs_first (c : Dev nD) (t : Fin cfg0.N) (h0 : t.val = 0) :
    outs V c t.val t.isLt =
      (stepPos (grid0.coords t) (xb1 V c t) (xb2 V c t) (xb0 V c t) (k0_pay2 (F := F)),
       stepNeg (grid0.coords t) (xb1 V c t) (xb2 V c t) (xb0 V c t) (k0_pay3 (F := F))) := by
  obtain ⟨n, hn⟩ := t
  cases n with
  | zero => rfl
  | succ n => exact absurd h0 (Nat.succ_ne_zero n)

/-- `outs` at a later point: one step over what the point before left. -/
theorem outs_later (c : Dev nD) (t : Fin cfg0.N) (h0 : ¬t.val = 0) :
    outs V c t.val t.isLt =
      (stepPos (grid0.coords t) (xb1 V c t) (xb2 V c t) (xb0 V c t) (outs V c (t.val - 1) (Nat.lt_of_le_of_lt (Nat.sub_le _ _) t.isLt)).1,
       stepNeg (grid0.coords t) (xb1 V c t) (xb2 V c t) (xb0 V c t) (outs V c (t.val - 1) (Nat.lt_of_le_of_lt (Nat.sub_le _ _) t.isLt)).2) := by
  obtain ⟨n, hn⟩ := t
  cases n with
  | zero => exact absurd rfl h0
  | succ n => rfl

end Cert.KernelIdeal.Hand

end
-- ==== Proof.KDat.lean ====
/-
  The pipeline's proof data and the body's obligation. The arrays are as the region finds them; after the body at a
  point each input's staging buffer holds its block, the two accumulators' buffers the accumulation so far. An input's
  buffer holds its block at every point, fetched there or not; an accumulator's buffer is not written back before the
  last point, so at a later point it holds what the point before left. The body at a point is then the first-point run
  or the later-point run, whichever the point's coordinates select.
-/
import proofs.«164058_j4466765988650_1_alg».proof.Proof.KPieces
import proofs.«164058_j4466765988650_1_alg».proof.Proof.KOuts

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it to the body, and its wholeness. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8192 .f32 := win0_4.stage (cfg0.slots t 4)
abbrev hs4 (t : Fin cfg0.N) : (ms4 t).IsWhole := hstage0_4 ((cfg0.slots t 4).cast nbuf0_4)

/-- The proof data on core `c`: the arrays as the region finds them; after the body each input's buffer at its block,
    the accumulators' at the accumulation so far; the two windows on the identities' array hold it at the two halves of
    the full share, the distances' window at the full share; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outs V c t.val t.isLt).1
    | ⟨4, _⟩ => (outs V c t.val t.isLt).2
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outs V c t.val t.isLt).1 := by dsimp only [dat]
theorem after_4 (c : Dev nD) (t : Fin cfg0.N) : (dat V c).after 4 t = (outs V c t.val t.isLt).2 := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- At a later point the column maxima's buffer holds what the point before left: it is written back at the last point only. -/
theorem before_3_later (c : Dev nD) (t : Fin cfg0.N) (h0 : ¬t.val = 0) (d) :
    (dat V c).before 3 t d = (outs V c (t.val - 1) (Nat.lt_of_le_of_lt (Nat.sub_le _ _) t.isLt)).1 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dat]

/-- Likewise the row minima's buffer. -/
theorem before_4_later (c : Dev nD) (t : Fin cfg0.N) (h0 : ¬t.val = 0) (d) :
    (dat V c).before 4 t d = (outs V c (t.val - 1) (Nat.lt_of_le_of_lt (Nat.sub_le _ _) t.isLt)).2 := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat]

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the inputs' buffers hold their blocks; at the first point the first-point run applies, at a
    later one the later-point run over what the point before left; the invariant passes through unread and the core
    owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4]
  by_cases h0 : t.val = 0
  · rw [outs_first V c t h0]
    iintro ⟨HΦ, Ho, ⟨%d0, H0⟩, ⟨%d1, H1⟩, ⟨%d2, H2⟩, ⟨%d3, H3⟩, ⟨%d4, H4⟩⟩
    iapply ((runFirst c (grid0.coords t) (ms0 t) (hs0 t) (ms1 t) (hs1 t) (ms2 t) (hs2 t) (ms3 t) (hs3 t) (ms4 t) (hs4 t) ((hcond0 t).mpr h0) (xb0 V c t) (xb1 V c t) (xb2 V c t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro
      exact first_leaves_pos c (grid0.coords t) (ms0 t) (hs0 t) (ms1 t) (hs1 t) (ms2 t) (hs2 t) (ms3 t) (hs3 t) (ms4 t) (hs4 t) ((hcond0 t).mpr h0) (xb0 V c t) (xb1 V c t) (xb2 V c t) e3
    · unfold owns; iexists _; isplitr
      swap; · iexact H4
      ipureintro
      exact first_leaves_neg c (grid0.coords t) (ms0 t) (hs0 t) (ms1 t) (hs1 t) (ms2 t) (hs2 t) (ms3 t) (hs3 t) (ms4 t) (hs4 t) ((hcond0 t).mpr h0) (xb0 V c t) (xb1 V c t) (xb2 V c t) e4
  · rw [outs_later V c t h0]
    simp only [before_3_later V c t h0, before_4_later V c t h0]
    iintro ⟨HΦ, Ho, ⟨%d0, H0⟩, ⟨%d1, H1⟩, ⟨%d2, H2⟩, ⟨%d3, H3⟩, ⟨%d4, H4⟩⟩
    iapply ((runLater c (grid0.coords t) (ms0 t) (hs0 t) (ms1 t) (hs1 t) (ms2 t) (hs2 t) (ms3 t) (hs3 t) (ms4 t) (hs4 t) (fun h => h0 ((hcond0 t).mp h)) (xb0 V c t) (xb1 V c t) (xb2 V c t)
      (outs V c (t.val - 1) (Nat.lt_of_le_of_lt (Nat.sub_le _ _) t.isLt)).1 (outs V c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro
      exact later_leaves_pos c (grid0.coords t) (ms0 t) (hs0 t) (ms1 t) (hs1 t) (ms2 t) (hs2 t) (ms3 t) (hs3 t) (ms4 t) (hs4 t) (fun h => h0 ((hcond0 t).mp h)) (xb0 V c t) (xb1 V c t) (xb2 V c t) _ _
    · unfold owns; iexists _; isplitr
      swap; · iexact H4
      ipureintro
      exact later_leaves_neg c (grid0.coords t) (ms0 t) (hs0 t) (ms1 t) (hs1 t) (ms2 t) (hs2 t) (ms3 t) (hs3 t) (ms4 t) (hs4 t) (fun h => h0 ((hcond0 t).mp h)) (xb0 V c t) (xb1 V c t) (xb2 V c t) _ _

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand

end
-- ==== Proof.KLaunch.lean ====
/-
  The launch. @main is a host stretch (the identities reshaped to one row), the kernel region, and two host stretches
  (the two results reshaped and subtracted; the softplus chain). Between items the core holds every unscoped buffer
  whole at a known valuation; the region takes its four arrays out of them — the identities' array, read by two
  windows, at the two halves of its full share — and puts them back at its exit, the two result arrays at what the
  pipeline leaves. So every weakly fair execution terminates and every final memory is the last valuation.
-/
import proofs.«164058_j4466765988650_1_alg».proof.Proof.KDat
import Idealize.ShloMosaic.Lib.Pipeline.Frame
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The region's arrays among the unscoped buffers -/

section Arrays

variable (V : (c : Dev nD) → (b : Ref sig .tc) → Buf (Elt F) ((c : Thread nD τ).loc b))

/-- The four buffers behind the five windows' arrays, one by one. -/
theorem arrBufs_chain (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v0) ↦{fullShare} V' main_v0)
          ∗ (((c : Thread nD τ).loc main_v1_0) ↦{fullShare} V' main_v1_0) ∗ (((c : Thread nD τ).loc main_v1_1) ↦{fullShare} V' main_v1_1)) := by
  unfold Pipeline.arrBufs
  exact bigSep_eq_bigSepL_of_eq [main_arg0, main_v0, main_v1_0, main_v1_1] (by decide) (by decide) _

/-- The pipeline's arrays, window by window, each at its share. -/
theorem arrays_chain (c : Dev nD) (G : (w : Fin cfg0.W) → Buf (Elt F) ((cfg0.win w).arr.view.loc (c : Thread nD τ))) :
    ((dat V c).arrays G : sProp 𝕄)
      = iprop((((c : Thread nD τ).loc main_arg0) ↦{fullShare} G 0) ∗ (((c : Thread nD τ).loc main_v0) ↦{fullShare.left} G 1)
          ∗ (((c : Thread nD τ).loc main_v0) ↦{fullShare.right} G 2)
          ∗ (((c : Thread nD τ).loc main_v1_0) ↦{fullShare} G 3) ∗ (((c : Thread nD τ).loc main_v1_1) ↦{fullShare} G 4)) := by
  unfold Dat.arrays
  rw [bigSep_W0, (arr_whole0 0).set_eq_univ, (arr_whole0 1).set_eq_univ, (arr_whole0 3).set_eq_univ, (arr_whole0 4).set_eq_univ]
  rfl

/-- ENTRY: the four buffers whole at `V` make the pipeline's arrays at their entry contents, the identities' array
    split between its two windows. -/
theorem arrays_in (c : Dev nD) :
    (Pipeline.arrBufs (Ix := Unit) (Name := ℕ) (U := UR sig nD τ) (Lvl := ℕ) spec0 c (V c) : sProp 𝕄) ⊢ (dat V c).arrays (dat V c).A := by
  rw [arrBufs_chain, arrays_chain]
  iintro ⟨H0, Hv, H3, H4⟩
  ihave Hs := (pointsTo_share (PosShare.mem_left_op_right fullShare)).1 $$ Hv
  icases Hs with ⟨Hl, Hr⟩
  isplitl [H0]; · iexact H0
  isplitl [Hl]; · iexact Hl
  isplitl [Hr]; · iexact Hr
  isplitl [H3]; · iexact H3
  iexact H4

/-- EXIT: the pipeline's arrays at contents `G` make the four buffers whole at any `V'` that has them there, the
    two halves of the identities' array joined. -/
theorem arrays_out (c : Dev nD) (G : (w : Fin cfg0.W) → Buf (Elt F) ((cfg0.win w).arr.view.loc (c : Thread nD τ)))
    (V' : (b : Ref sig .tc) → Buf (Elt F) ((c : Thread nD τ).loc b))
    (h0 : G 0 = V' main_arg0) (h1 : G 1 = V' main_v0) (h2 : G 2 = V' main_v0) (h3 : G 3 = V' main_v1_0) (h4 : G 4 = V' main_v1_1) :
    ((dat V c).arrays G : sProp 𝕄) ⊢ Pipeline.arrBufs (Ix := Unit) (Name := ℕ) (U := UR sig nD τ) (Lvl := ℕ) spec0 c V' := by
  rw [arrBufs_chain, arrays_chain, h0, h1, h2, h3, h4]
  iintro ⟨H0, Hl, Hr, H3, H4⟩
  isplitl [H0]; · iexact H0
  isplitl [Hl Hr]
  · iapply (pointsTo_share (PosShare.mem_left_op_right fullShare)).2
    isplitl [Hl] <;> iassumption
  isplitl [H3]; · iexact H3
  iexact H4

end Arrays

/-! ## The buffers' contents between items -/

variable (m : (ℓ : Loc nD τ sig) → Buf (Elt F) ℓ) (ρ : Dev nD → PrngReg)

/-- Core `c`'s unscoped buffers at launch; -/
abbrev W0 : Dev nD → Valuation τ sig (Elt F) := fun c b => m ((c : Dev nD), b)
/-- after the identities are reshaped to one row (the region's entry); -/
abbrev W1 : Dev nD → Valuation τ sig (Elt F) := fun c => StableHlo.after hostOps0 (W0 m c)
/-- the same read at the TensorCore's references (what the proof data take); -/
abbrev V1 : (c : Dev nD) → (b : Ref sig .tc) → Buf (Elt F) ((c : Thread nD τ).loc b) := fun c b => W1 m c b
/-- at the region's exit: the two result arrays at what the pipeline leaves, every other buffer as entered; -/
def W2 (c : Dev nD) : Valuation τ sig (Elt F) :=
  Function.update (Function.update (W1 m c) main_v1_0 ((dat (V1 m) c).arrAt 3 cfg0.N)) main_v1_1 ((dat (V1 m) c).arrAt 4 cfg0.N)
abbrev V2 : (c : Dev nD) → (b : Ref sig .tc) → Buf (Elt F) ((c : Thread nD τ).loc b) := fun c b => W2 m c b
/-- after the results are reshaped and subtracted; -/
abbrev W3 : Dev nD → Valuation τ sig (Elt F) := fun c => StableHlo.after hostOps1 (W2 m c)
/-- after the softplus chain: the end. -/
abbrev W4 : Dev nD → Valuation τ sig (Elt F) := fun c => StableHlo.after hostOps1_1 (W3 m c)

theorem W2_v1_1 (c : Dev nD) : W2 m c main_v1_1 = (dat (V1 m) c).arrAt 4 cfg0.N := by
  unfold W2; exact Function.update_self ..

theorem W2_v1_0 (c : Dev nD) : W2 m c main_v1_0 = (dat (V1 m) c).arrAt 3 cfg0.N := by
  unfold W2
  rw [Function.update_of_ne (StableHlo.devRef_ne_of_ne (by decide) : (Proc.devRef .tc main_v1_0 : DevRef τ sig) ≠ Proc.devRef .tc main_v1_1)]
  exact Function.update_self ..

theorem W2_of_ne (c : Dev nD) (b : Ref sig .tc) (h0 : b ≠ main_v1_0) (h1 : b ≠ main_v1_1) : W2 m c b = W1 m c b := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as an item over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the generator register. -/
abbrev Tₙ (c : Dev nD) : sProp 𝕄 := iprop(StableHlo.held (c : Thread nD τ) (Pipeline.ucRefs τ sig) (W4 m c) ∗ ∃ r, prngReg c r)

/-! ## The region as an item -/

set_option backward.isDefEq.respectTransparency.types false in
/-- The kernel region over the thread state: entered from every unscoped buffer at `W1`, left at `W2`. Its arrays
    are taken out of the unscoped buffers (the identities' array at two half shares) and put back at the exit
    contents; the generator register goes into the region's invariant and comes back; nothing owed; no semaphore of
    the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (W1 m c) : sProp 𝕄)
        ⊢ iprop((pdats m 0 c).arrays (pdats m 0 c).A
            ∗ Pipeline.unscopedRest (Ix := Unit) (Name := ℕ) (U := UR sig nD τ) (Lvl := ℕ) spec0 c (V1 m c)) := by
      rw [← Pipeline.unscopedBufs_held (Ix := Unit) (Name := ℕ) (U := UR sig nD τ) (Lvl := ℕ) c (W1 m c),
        Pipeline.unscopedBufs_split₀ cfgs 0 winFacts₀0.arr_unscoped c (V1 m c)]
      exact sep_mono (arrays_in (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        Pipeline.unscopedBufs_split₀ cfgs 0 winFacts₀0.arr_unscoped c (V2 m c)]
      refine sep_mono (arrays_out (V1 m) c _ (V2 m c) ?_ ?_ ?_ ?_ ?_) (Entails.of_eq ?_)
      · exact ((dat (V1 m) c).arrAt_in 0 rfl _).trans ((A_eq (V1 m) c 0).trans (W2_of_ne m c main_arg0 (by decide) (by decide)).symm)
      · exact ((dat (V1 m) c).arrAt_in 1 rfl _).trans ((A_eq (V1 m) c 1).trans (W2_of_ne m c main_v0 (by decide) (by decide)).symm)
      · exact ((dat (V1 m) c).arrAt_in 2 rfl _).trans ((A_eq (V1 m) c 2).trans (W2_of_ne m c main_v0 (by decide) (by decide)).symm)
      · exact (W2_v1_0 m c).symm
      · exact (W2_v1_1 m c).symm
      · unfold Pipeline.unscopedRest
        exact bigSep_congr fun b hb => by
          have hb' := (Finset.mem_sdiff.mp hb).2
          rw [show V2 m c b = V1 m c b from W2_of_ne m c b
            (fun e => hb' (Finset.mem_image.mpr ⟨3, Finset.mem_univ _, e.symm⟩))
            (fun e => hb' (Finset.mem_image.mpr ⟨4, Finset.mem_univ _, e.symm⟩))]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)) ]

/-- @main is the run of the items. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KKeep.lean ====
/-
  No item of @main writes an argument array: the first host stretch writes the reshaped identities, the region its two
  result arrays, the later stretches their own results. So the two arguments end at their launch contents.
-/
import proofs.«164058_j4466765988650_1_alg».proof.Proof.KLaunch

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-! ## What each host stretch writes -/

/-- The first stretch writes the reshaped identities; -/
abbrev written0 : List (Ref sig .tc) := [main_v0]
/-- the second the two reshaped results and their difference; -/
abbrev written1 : List (Ref sig .tc) := [main_v2, main_v3, main_v4]
/-- the third the softplus chain's fourteen values. -/
abbrev written1_1 : List (Ref sig .tc) :=
  [main_call0_cst, main_call0_v0, main_call0_v1, main_call0_v2, main_call0_v3, main_call0_v4, main_call0_v5, main_call0_v6,
    main_call0_v7, main_call0_v8, main_call0_v9, main_call0_v10, main_call0_v11, main_v5]

/-- One reference of a list, as a device buffer, is among the list's device buffers. -/
theorem single_sub {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-- Each operation of a stretch writes its one result, which the stretch's list names. -/
theorem hostOps0_writes : (hostOps0 : List (HloOp τ sig (Elt F))).Forall fun op =>
    op.writes ⊆ (written0.map (Proc.devRef (τ := τ) .tc)).toFinset :=
  single_sub main_v0 (by decide)

theorem hostOps1_writes : (hostOps1 : List (HloOp τ sig (Elt F))).Forall fun op =>
    op.writes ⊆ (written1.map (Proc.devRef (τ := τ) .tc)).toFinset :=
  ⟨single_sub main_v2 (by decide), single_sub main_v3 (by decide), single_sub main_v4 (by decide)⟩

theorem hostOps1_1_writes : (hostOps1_1 : List (HloOp τ sig (Elt F))).Forall fun op =>
    op.writes ⊆ (written1_1.map (Proc.devRef (τ := τ) .tc)).toFinset :=
  ⟨single_sub main_call0_cst (by decide), single_sub main_call0_v0 (by decide), single_sub main_call0_v1 (by decide),
    single_sub main_call0_v2 (by decide), single_sub main_call0_v3 (by decide), single_sub main_call0_v4 (by decide),
    single_sub main_call0_v5 (by decide), single_sub main_call0_v6 (by decide), single_sub main_call0_v7 (by decide),
    single_sub main_call0_v8 (by decide), single_sub main_call0_v9 (by decide), single_sub main_call0_v10 (by decide),
    single_sub main_call0_v11 (by decide), single_sub main_v5 (by decide)⟩

variable (m : (ℓ : Loc nD τ sig) → Buf (Elt F) ℓ)

/-- The distances end as launched. -/
theorem W4_arg0 (c : Dev nD) : W4 m c main_arg0 = m ((c : Thread nD τ).loc main_arg0) := by
  calc W4 m c main_arg0
    _ = W3 m c main_arg0 := StableHlo.after_of_writes_sub hostOps1_1 (W3 m c) hostOps1_1_writes (by decide)
    _ = W2 m c main_arg0 := StableHlo.after_of_writes_sub hostOps1 (W2 m c) hostOps1_writes (by decide)
    _ = W1 m c main_arg0 := W2_of_ne m c main_arg0 (by decide) (by decide)
    _ = W0 m c main_arg0 := StableHlo.after_of_writes_sub hostOps0 (W0 m c) hostOps0_writes (by decide)
    _ = m ((c : Thread nD τ).loc main_arg0) := rfl

/-- The identities end as launched. -/
theorem W4_arg1 (c : Dev nD) : W4 m c main_arg1 = m ((c : Thread nD τ).loc main_arg1) := by
  calc W4 m c main_arg1
    _ = W3 m c main_arg1 := StableHlo.after_of_writes_sub hostOps1_1 (W3 m c) hostOps1_1_writes (by decide)
    _ = W2 m c main_arg1 := StableHlo.after_of_writes_sub hostOps1 (W2 m c) hostOps1_writes (by decide)
    _ = W1 m c main_arg1 := W2_of_ne m c main_arg1 (by decide) (by decide)
    _ = W0 m c main_arg1 := StableHlo.after_of_writes_sub hostOps0 (W0 m c) hostOps0_writes (by decide)
    _ = m ((c : Thread nD τ).loc main_arg1) := rfl

end Cert.KernelIdeal.Hand

end
-- ==== Proof.KPay.lean ====
/-
  What the kernel body stores, element by element, on the extended reals. With `x1` the identities of the point's
  1024 rows, `x2` those of its 1024 columns and `x0` the 1024 × 1024 tile of distances:
  the stretch stored into the column maxima is, at column q, the maximum of what was there and of the tile's column
  q over the rows (the distance on a positive pair, zero elsewhere; a maximum over no row would be -∞);
  the stretch stored into the row minima is, at row r, the minimum of what was there and of the tile's row r over the
  columns (+∞ on a positive pair, the distance elsewhere); the two fills of the first point are zero and +∞.
-/
import proofs.«164058_j4466765988650_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

/-! ## Layout operations of the mask, read at an index given by coordinates -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- An integer comparison at an index compares the elements. -/
theorem cmpi_at {s : Shape} {w : ℕ} (p : CmpIPredicate) (x y : IVec s w) (i : s.Idx) :
    cmpi p x y i = IntOp.cmpi p (x i) (y i) := rfl

/-- A select on the bit of an equality test is the `if` on the equality. -/
theorem select_cmpi_eq {α : Type} {w : ℕ} (u v : BitVec w) (A B : α) :
    Scalar.select (IntOp.cmpi .eq u v) A B = if u = v then A else B := by
  by_cases h : u = v
  · rw [if_pos h, IntOp.cmpi_eq.mpr h]; exact select_one A B
  · rw [if_neg h, eq_zero_of_ne_one (fun h1 => h (IntOp.cmpi_eq.mp h1))]; exact select_zero A B

/-! ## The two reductions, read at an index -/

/-- A `minimumf` reduction over one axis, on the extended reals: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The word of -∞ is -∞ … -/
theorem ofBits_neg_inf : FloatOps.ofBits (F := Ideal) .f32 0xFF800000#32 = (⊥ : EReal) := by
  show Ideal.ofBits .f32 0xFF800000#32 = ⊥
  simp [Ideal.ofBits, Ideal.ieee]
/-- … and the word of +∞ is +∞. -/
theorem ofBits_pos_inf : FloatOps.ofBits (F := Ideal) .f32 0x7F800000#32 = (⊤ : EReal) := by
  show Ideal.ofBits .f32 0x7F800000#32 = ⊤
  simp [Ideal.ofBits, Ideal.ieee]

/-- The maximum over the rows, from -∞, at column `q`: the supremum over the rows of the tile's column `q`. -/
theorem colMax_apply (src : FVec Ideal S1024x1024 .f32) (h : S1024x1024.Reduces [0] S1024) (hφ : FKind.Formats .f32)
    (hacc : (0xFF800000#32 : BitVec 32) = 0xFF800000#32) (q : Fin 1024) :
    multiReduction .maximumf [0] S1024 src 0xFF800000#32 h hφ hacc (ix1 q)
      = Finset.univ.sup fun a : Fin 1024 => src (ix2 a q) := by
  refine (Ideal.multiReduction_maximumf_single src 0xFF800000#32 h hφ hacc (ix1 q)).trans ?_
  rw [ofBits_neg_inf]
  have hl : ∀ a : Fin 1024, h.lift (ix1 q) a = ix2 a q := fun a => funext fun c =>
    match c with | ⟨0, _⟩ => rfl | ⟨1, _⟩ => rfl
  show (Finset.univ : Finset (Fin 1024)).fold max ⊥ (fun a : Fin 1024 => src (h.lift (ix1 q) a)) = _
  simp only [hl]
  rfl

/-- The minimum over the columns, from +∞, at row `r`: the infimum over the columns of the tile's row `r`. -/
theorem rowMin_apply (src : FVec Ideal S1024x1024 .f32) (h : S1024x1024.Reduces [1] S1024) (hφ : FKind.Formats .f32)
    (hacc : (0x7F800000#32 : BitVec 32) = 0x7F800000#32) (r : Fin 1024) :
    multiReduction .minimumf [1] S1024 src 0x7F800000#32 h hφ hacc (ix1 r)
      = Finset.univ.inf fun b : Fin 1024 => src (ix2 r b) := by
  refine (multiReduction_minimumf_single src 0x7F800000#32 h hφ hacc (ix1 r)).trans ?_
  rw [ofBits_pos_inf]
  have hl : ∀ b : Fin 1024, h.lift (ix1 r) b = ix2 r b := fun b => funext fun c =>
    match c with | ⟨0, _⟩ => rfl | ⟨1, _⟩ => rfl
  show (Finset.univ : Finset (Fin 1024)).fold min ⊤ (fun b : Fin 1024 => src (h.lift (ix1 r) b)) = _
  simp only [hl]
  rfl

/-! ## The mask, and the two masked tiles -/

/-- The mask at `(a, b)` tests row `a`'s identity against column `b`'s. -/
theorem pay4_apply (x1 x2 : Vec Ideal S1x1024 .i32) (a b : Fin 1024) :
    k0_pay4 (F := Ideal) x1 x2 (ix2 a b) = IntOp.cmpi .eq (x1 (ix2 (0 : Fin 1) a)) (x2 (ix2 (0 : Fin 1) b)) := by
  unfold k0_pay4
  rw [cmpi_at, broadcastTo_a1_ab_apply, shapeCast_a_a1_apply, shapeCast_1a_a_apply,
    broadcastTo_1b_ab_apply, shapeCast_a_1a_apply, shapeCast_1a_a_apply]

/-- The stretch stored into the column maxima, at column `q` of the tile. -/
theorem pay5_apply (x1 x2 : Vec Ideal S1x1024 .i32) (x0 : Vec Ideal S1024x1024 .f32) (v : Vec Ideal S1x1024 .f32) (q : Fin 1024) :
    k0_pay5 (F := Ideal) x1 x2 x0 v (ix2 (0 : Fin 1) q)
      = max (v (ix2 (0 : Fin 1) q))
          (Finset.univ.sup fun a : Fin 1024 => if x1 (ix2 (0 : Fin 1) a) = x2 (ix2 (0 : Fin 1) q) then x0 (ix2 a q) else (0 : EReal)) := by
  unfold k0_pay5
  dsimp only
  rw [shapeCast_a_1a_apply, maximumf_apply, shapeCast_1a_a_apply]
  refine congrArg (max _) ((colMax_apply _ _ _ _ q).trans (Finset.sup_congr rfl fun a _ => ?_))
  rw [select_apply, pay4_apply, broadcast_apply, select_cmpi_eq]
  by_cases h : x1 (ix2 (0 : Fin 1) a) = x2 (ix2 (0 : Fin 1) q)
  · rw [if_pos h, if_pos h]
  · rw [if_neg h, if_neg h]
    show Ideal.ofBits .f32 0x00000000#32 = 0
    exact Ideal.ofBits_zero_f32

/-- The stretch stored into the row minima, at row `r` of the tile. -/
theorem pay16_apply (x1 x2 : Vec Ideal S1x1024 .i32) (x0 : Vec Ideal S1024x1024 .f32) (v : Vec Ideal S1x1024 .f32) (r : Fin 1024) :
    k0_pay1 (F := Ideal) (k0_pay6 (F := Ideal) x1 x2 x0 v) (ix2 (0 : Fin 1) r)
      = min (v (ix2 (0 : Fin 1) r))
          (Finset.univ.inf fun b : Fin 1024 => if x1 (ix2 (0 : Fin 1) r) = x2 (ix2 (0 : Fin 1) b) then (⊤ : EReal) else x0 (ix2 r b)) := by
  unfold k0_pay1 k0_pay6
  dsimp only
  rw [shapeCast_a_1a_apply, minimumf_apply, shapeCast_1a_a_apply]
  refine congrArg (min _) ((rowMin_apply _ _ _ _ r).trans (Finset.inf_congr rfl fun b _ => ?_))
  rw [select_apply, pay4_apply, broadcast_apply, select_cmpi_eq]
  by_cases h : x1 (ix2 (0 : Fin 1) r) = x2 (ix2 (0 : Fin 1) b)
  · rw [if_pos h, if_pos h]
    exact ofBits_pos_inf
  · rw [if_neg h, if_neg h]

/-- The first point's fill of the column maxima is zero everywhere. -/
theorem pay2_apply (y : S1x8192.Idx) : k0_pay2 (F := Ideal) y = (0 : EReal) := by
  unfold k0_pay2
  show Ideal.ofBits .f32 0x00000000#32 = 0
  exact Ideal.ofBits_zero_f32

/-- The first point's fill of the row minima is +∞ everywhere. -/
theorem pay3_apply (y : S1x8192.Idx) : k0_pay3 (F := Ideal) y = (⊤ : EReal) := by
  unfold k0_pay3
  exact ofBits_pos_inf

end Cert.KernelIdeal.Hand

end
-- ==== Proof.KFoldMath.lean ====
/-
  The kernel's accumulation, as mathematics. The 64 grid points are visited in order n = 8·i + j, i the row tile and
  j the column tile (tiles of 1024). At point n the column maxima of the columns in tile j take in the maxima over the
  rows of tile i, and the row minima of the rows in tile i take in the minima over the columns of tile j; everything
  else is left as it was. Starting from zero (for the maxima) and +∞ (for the minima), after all 64 points every
  column has met every row and every row every column: the accumulators are the whole-array maximum from zero and
  the whole-array minimum.
-/
import proofs.«164058_j4466765988650_1_alg».proof.Proof.Spec

noncomputable section

namespace Cert.Spec

open Idealize.ShloMosaic Idealize.ShloMosaic.ValueIdx

/-- Row `a` of row tile `i`, column `b` of column tile `j`. -/
def tileIdx (i : ℕ) (hi : i < 8) (a : Fin 1024) : Fin 8192 := ⟨1024 * i + a.val, by have := a.isLt; omega⟩

/-- The column maxima after point `n`'s update of `acc`. -/
def updPos (x : Dist) (p : Ids) (n : ℕ) (hn : n < 64) (acc : Fin 8192 → EReal) : Fin 8192 → EReal := fun c =>
  if c.val / 1024 = n % 8 then
    max (acc c) (Finset.univ.sup fun a : Fin 1024 => posTerm x p (tileIdx (n / 8) (by omega) a) c)
  else acc c

/-- The row minima after point `n`'s update of `acc`. -/
def updNeg (x : Dist) (p : Ids) (n : ℕ) (hn : n < 64) (acc : Fin 8192 → EReal) : Fin 8192 → EReal := fun r =>
  if r.val / 1024 = n / 8 then
    min (acc r) (Finset.univ.inf fun b : Fin 1024 => negTerm x p r (tileIdx (n % 8) (by omega) b))
  else acc r

/-- The column maxima before point `n` (after the points below it): zero, then one update per point. -/
def accPos (x : Dist) (p : Ids) : (n : ℕ) → n ≤ 64 → Fin 8192 → EReal
  | 0, _ => fun _ => 0
  | n + 1, h => updPos x p n (by omega) (accPos x p n (by omega))

/-- The row minima before point `n`: +∞, then one update per point. -/
def accNeg (x : Dist) (p : Ids) : (n : ℕ) → n ≤ 64 → Fin 8192 → EReal
  | 0, _ => fun _ => ⊤
  | n + 1, h => updNeg x p n (by omega) (accNeg x p n (by omega))

/-- One more point: the column maxima take in point `n`'s update. -/
theorem accPos_succ (x : Dist) (p : Ids) (n : ℕ) (h : n + 1 ≤ 64) :
    accPos x p (n + 1) h = updPos x p n (by omega) (accPos x p n (by omega)) := rfl

/-- One more point: the row minima take in point `n`'s update. -/
theorem accNeg_succ (x : Dist) (p : Ids) (n : ℕ) (h : n + 1 ≤ 64) :
    accNeg x p (n + 1) h = updNeg x p n (by omega) (accNeg x p n (by omega)) := rfl

/-- An index of tile `i` is the tile's base plus its offset in the tile. -/
theorem tileIdx_mod (i : ℕ) (hi : i < 8) (r : Fin 8192) (hr : r.val / 1024 = i) :
    tileIdx i hi ⟨r.val % 1024, Nat.mod_lt _ (by norm_num)⟩ = r := by
  apply Fin.ext
  show 1024 * i + r.val % 1024 = r.val
  omega

/-- The tile of `tileIdx i hi a` is `i`. -/
theorem tileIdx_div (i : ℕ) (hi : i < 8) (a : Fin 1024) : (tileIdx i hi a).val / 1024 = i := by
  show (1024 * i + a.val) / 1024 = i
  have := a.isLt
  omega

/-- The column maxima before point `n`, by their upper bounds: `b` bounds the accumulator of column `c` exactly
    when it bounds zero and the term of every row `r` that has met column `c` before point `n`, which is to say
    8·(r / 1024) + c / 1024 < n (the point at which row tile r / 1024 meets column tile c / 1024). -/
theorem accPos_le_iff (x : Dist) (p : Ids) (c : Fin 8192) (b : EReal) :
    ∀ (n : ℕ) (h : n ≤ 64), accPos x p n h c ≤ b ↔
      0 ≤ b ∧ ∀ r : Fin 8192, 8 * (r.val / 1024) + c.val / 1024 < n → posTerm x p r c ≤ b := by
  intro n
  induction n with
  | zero =>
    intro h
    show (0 : EReal) ≤ b ↔ _
    exact ⟨fun h0 => ⟨h0, fun r hr => absurd hr (Nat.not_lt_zero _)⟩, fun h0 => h0.1⟩
  | succ n ih =>
    intro h
    have ih' := ih (by omega)
    rw [accPos_succ]
    unfold updPos
    by_cases hc : c.val / 1024 = n % 8
    · -- column c is in the column tile of point n: the rows of row tile n / 8 come in
      rw [if_pos hc, max_le_iff, ih', Finset.sup_le_iff]
      constructor
      · rintro ⟨⟨h0, hr⟩, ha⟩
        refine ⟨h0, fun r hr1 => ?_⟩
        by_cases hlt : 8 * (r.val / 1024) + c.val / 1024 < n
        · exact hr r hlt
        · have hrt : r.val / 1024 = n / 8 := by omega
          have hm := ha ⟨r.val % 1024, Nat.mod_lt _ (by norm_num)⟩ (Finset.mem_univ _)
          simp only [tileIdx_mod (n / 8) (by omega) r hrt] at hm
          exact hm
      · rintro ⟨h0, hr⟩
        refine ⟨⟨h0, fun r hr1 => hr r (by omega)⟩, fun a _ => hr _ ?_⟩
        rw [tileIdx_div]
        omega
    · -- column c is in another column tile: nothing changes, and no new row meets it at point n
      rw [if_neg hc, ih']
      have hc8 := c.isLt
      constructor
      · rintro ⟨h0, hr⟩
        exact ⟨h0, fun r hr1 => hr r (by omega)⟩
      · rintro ⟨h0, hr⟩
        exact ⟨h0, fun r hr1 => hr r (by omega)⟩

/-- The row minima before point `n`, by their lower bounds: `b` is below the accumulator of row `r` exactly when it
    is below the term of every column `c` that has met row `r` before point `n` (nothing to be below at `n = 0`:
    the accumulator is +∞). -/
theorem le_accNeg_iff (x : Dist) (p : Ids) (r : Fin 8192) (b : EReal) :
    ∀ (n : ℕ) (h : n ≤ 64), b ≤ accNeg x p n h r ↔
      ∀ c : Fin 8192, 8 * (r.val / 1024) + c.val / 1024 < n → b ≤ negTerm x p r c := by
  intro n
  induction n with
  | zero =>
    intro h
    show b ≤ (⊤ : EReal) ↔ _
    exact ⟨fun _ c hc => absurd hc (Nat.not_lt_zero _), fun _ => le_top⟩
  | succ n ih =>
    intro h
    have ih' := ih (by omega)
    rw [accNeg_succ]
    unfold updNeg
    by_cases hr : r.val / 1024 = n / 8
    · -- row r is in the row tile of point n: the columns of column tile n % 8 come in
      rw [if_pos hr, le_min_iff, ih', Finset.le_inf_iff]
      constructor
      · rintro ⟨hc, ha⟩
        intro c hc1
        by_cases hlt : 8 * (r.val / 1024) + c.val / 1024 < n
        · exact hc c hlt
        · have hct : c.val / 1024 = n % 8 := by omega
          have hm := ha ⟨c.val % 1024, Nat.mod_lt _ (by norm_num)⟩ (Finset.mem_univ _)
          simp only [tileIdx_mod (n % 8) (by omega) c hct] at hm
          exact hm
      · intro hc
        refine ⟨fun c hc1 => hc c (by omega), fun a _ => hc _ ?_⟩
        rw [tileIdx_div]
        omega
    · -- row r is in another row tile: nothing changes, and no new column meets it at point n
      rw [if_neg hr, ih']
      constructor
      · intro hc c hc1
        have hc8 := c.isLt
        exact hc c (by omega)
      · intro hc c hc1
        exact hc c (by omega)

/-- After all 64 points the column maxima are the whole-array maximum from zero. -/
theorem accPos_last (x : Dist) (p : Ids) (c : Fin 8192) : accPos x p 64 (le_refl _) c = fposK x p c := by
  -- equal because they have the same upper bounds: at n = 64 every row has met column c
  apply eq_of_forall_ge_iff
  intro b
  rw [accPos_le_iff]
  unfold fposK
  rw [max_le_iff, Finset.sup_le_iff]
  constructor
  · rintro ⟨h0, hr⟩
    exact ⟨h0, fun r _ => hr r (by have := r.isLt; have := c.isLt; omega)⟩
  · rintro ⟨h0, hr⟩
    exact ⟨h0, fun r _ => hr r (Finset.mem_univ _)⟩

/-- After all 64 points the row minima are the whole-array minimum. -/
theorem accNeg_last (x : Dist) (p : Ids) (r : Fin 8192) : accNeg x p 64 (le_refl _) r = fneg x p r := by
  -- equal because they have the same lower bounds: at n = 64 every column has met row r
  apply eq_of_forall_le_iff
  intro b
  rw [le_accNeg_iff]
  unfold fneg
  rw [Finset.le_inf_iff]
  constructor
  · intro hc c _
    exact hc c (by have := r.isLt; have := c.isLt; omega)
  · intro hc c _
    exact hc c (Finset.mem_univ _)

end Cert.Spec

end
-- ==== Proof.KValue.lean ====
/-
  The program's accumulation is the mathematical one. At point n = 8·i + j the stretch the body replaces in the column
  maxima is the columns of tile j and what it stores there at column 1024·j + q is the maximum of the old value and of
  the masked distances of the tile's column q over its 1024 rows 1024·i + a; in the row minima the rows of tile i, at
  row 1024·i + r the minimum of the old value and of the masked distances over the tile's columns. The tile, the rows'
  identities and the columns' identities are blocks (i, j), i and j of the argument arrays. So after point n the two
  accumulators are `accPos` / `accNeg` at n + 1, and after the last point the whole-array maximum from zero and the
  whole-array minimum.
-/
import proofs.«164058_j4466765988650_1_alg».proof.Proof.KOuts
import proofs.«164058_j4466765988650_1_alg».proof.Proof.KPay
import proofs.«164058_j4466765988650_1_alg».proof.Proof.KFoldMath

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The identities as the kernel's windows see them: row 0 of the [1, 8192] array. -/
def idsOf (pv : Vec Ideal S1x8192 .i32) : Cert.Spec.Ids := fun k => pv (ix2 (0 : Fin 1) (k 0))

/-! ## The grid: point t is row tile t / 8, column tile t % 8 -/

/-- There are 64 points. -/
theorem lt64 (t : Fin cfg0.N) : t.val < 64 := lt_of_lt_of_eq t.isLt N_0

theorem div8 (t : Fin cfg0.N) : t.val / 8 < 8 := by have := lt64 t; omega
theorem mod8 (t : Fin cfg0.N) : t.val % 8 < 8 := Nat.mod_lt _ (by norm_num)

/-- The coordinates of point `t`, and each input window's block index there: the tile is block (t / 8, t % 8) of the
    distances, the rows' identities block t / 8 and the columns' block t % 8 of the identities. -/
theorem grid_facts : ∀ t : Fin cfg0.N,
    (grid0.coords t 0).val = t.val / 8 ∧ (grid0.coords t 1).val = t.val % 8
    ∧ win0_0.index t (0 : Fin 2) = t.val / 8 ∧ win0_0.index t (1 : Fin 2) = t.val % 8
    ∧ win0_1.index t (0 : Fin 2) = 0 ∧ win0_1.index t (1 : Fin 2) = t.val / 8
    ∧ win0_2.index t (0 : Fin 2) = 0 ∧ win0_2.index t (1 : Fin 2) = t.val % 8 :=
  (by decide +kernel : ∀ t : Fin grid0.N, _)

/-- The position of `k` inside its tile of 1024. -/
abbrev lane (k : Fin 8192) : Fin 1024 := ⟨k.val % 1024, Nat.mod_lt _ (by norm_num)⟩

/-! ## The three input blocks, read at an index: a block's coordinate is index × size + the coordinate inside it -/

/-- The tile at point `t`, at (a, q): the distance at row 1024·(t / 8) + a, column 1024·(t % 8) + q. -/
theorem xb0_apply (c : Dev nD) (t : Fin cfg0.N) (a q : Fin 1024) :
    xb0 V c t (ix2 a q)
      = V c main_arg0 (ix2 (Cert.Spec.tileIdx (t.val / 8) (div8 t) a) (Cert.Spec.tileIdx (t.val % 8) (mod8 t) q)) := by
  obtain ⟨-, -, e0, e1, -⟩ := grid_facts t
  show V c main_arg0 (((cfg0.win 0).blk t).view.emb (ix2 a q)) = V c main_arg0 _
  congr 1
  funext b
  apply Fin.ext
  match b with
  | ⟨0, _⟩ =>
    show win0_0.index t (0 : Fin 2) * 1024 + 1 * a.val = 1024 * (t.val / 8) + a.val
    rw [e0]; omega
  | ⟨1, _⟩ =>
    show win0_0.index t (1 : Fin 2) * 1024 + 1 * q.val = 1024 * (t.val % 8) + q.val
    rw [e1]; omega

/-- The rows' identities at point `t`, at a: the identity of row 1024·(t / 8) + a. -/
theorem xb1_apply (c : Dev nD) (t : Fin cfg0.N) (a : Fin 1024) :
    xb1 V c t (ix2 (0 : Fin 1) a) = V c main_v0 (ix2 (0 : Fin 1) (Cert.Spec.tileIdx (t.val / 8) (div8 t) a)) := by
  obtain ⟨-, -, -, -, e0, e1, -⟩ := grid_facts t
  show V c main_v0 (((cfg0.win 1).blk t).view.emb (ix2 (0 : Fin 1) a)) = V c main_v0 _
  congr 1
  funext b
  apply Fin.ext
  match b with
  | ⟨0, _⟩ =>
    show win0_1.index t (0 : Fin 2) * 1 + 1 * 0 = 0
    rw [e0]
  | ⟨1, _⟩ =>
    show win0_1.index t (1 : Fin 2) * 1024 + 1 * a.val = 1024 * (t.val / 8) + a.val
    rw [e1]; omega

/-- The columns' identities at point `t`, at q: the identity of column 1024·(t % 8) + q. -/
theorem xb2_apply (c : Dev nD) (t : Fin cfg0.N) (q : Fin 1024) :
    xb2 V c t (ix2 (0 : Fin 1) q) = V c main_v0 (ix2 (0 : Fin 1) (Cert.Spec.tileIdx (t.val % 8) (mod8 t) q)) := by
  obtain ⟨-, -, -, -, -, -, e0, e1⟩ := grid_facts t
  show V c main_v0 (((cfg0.win 2).blk t).view.emb (ix2 (0 : Fin 1) q)) = V c main_v0 _
  congr 1
  funext b
  apply Fin.ext
  match b with
  | ⟨0, _⟩ =>
    show win0_2.index t (0 : Fin 2) * 1 + 1 * 0 = 0
    rw [e0]
  | ⟨1, _⟩ =>
    show win0_2.index t (1 : Fin 2) * 1024 + 1 * q.val = 1024 * (t.val % 8) + q.val
    rw [e1]; omega

/-! ## One point's update, read at an index -/

/-- Inside the replaced stretch the new contents are read, at the position within the stretch, -/
theorem putAt_in (off : Fin 2 → ℕ) (a : Vec Ideal S1x8192 .f32) (w : Vec Ideal S1x1024 .f32) (y : S1x8192.Idx)
    (h : ∀ b, off b ≤ (y b).val ∧ (y b).val < off b + S1x1024.size b) :
    putAt off a w y = w (Rect.unitLocal (s := S1x8192) (off := off) (size := S1x1024.size) y h) := by
  unfold putAt
  exact dif_pos h

/-- and outside it the old. -/
theorem putAt_out (off : Fin 2 → ℕ) (a : Vec Ideal S1x8192 .f32) (w : Vec Ideal S1x1024 .f32) (y : S1x8192.Idx)
    (h : ¬∀ b, off b ≤ (y b).val ∧ (y b).val < off b + S1x1024.size b) : putAt off a w y = a y := by
  unfold putAt
  exact dif_neg h

/-- Column `k` lies in the 1024-wide stretch at offsets (0, 1024·J) exactly when its tile is `J`. -/
theorem in_stretch_iff (off : Fin 2 → ℕ) (J : ℕ) (hoff : off = ![0, 1024 * J]) (k : Fin 8192) :
    (∀ b, off b ≤ ((ix2 (0 : Fin 1) k : S1x8192.Idx) b).val
        ∧ ((ix2 (0 : Fin 1) k : S1x8192.Idx) b).val < off b + S1x1024.size b) ↔ k.val / 1024 = J := by
  subst hoff
  constructor
  · intro h
    have h1 : 1024 * J ≤ k.val ∧ k.val < 1024 * J + 1024 := h 1
    omega
  · intro h b
    match b with
    | ⟨0, _⟩ => exact ⟨Nat.le_refl 0, Nat.lt_succ_self 0⟩
    | ⟨1, _⟩ =>
      show 1024 * J ≤ k.val ∧ k.val < 1024 * J + 1024
      omega

/-- The position of column `k` within the stretch of its tile is its lane. -/
theorem unitLocal_lane (off : Fin 2 → ℕ) (J : ℕ) (hoff : off = ![0, 1024 * J]) (k : Fin 8192) (hk : k.val / 1024 = J)
    (h : ∀ b, off b ≤ ((ix2 (0 : Fin 1) k : S1x8192.Idx) b).val
        ∧ ((ix2 (0 : Fin 1) k : S1x8192.Idx) b).val < off b + S1x1024.size b) :
    Rect.unitLocal (s := S1x8192) (off := off) (size := S1x1024.size) (ix2 (0 : Fin 1) k) h = ix2 (0 : Fin 1) (lane k) := by
  subst hoff
  funext b
  apply Fin.ext
  match b with
  | ⟨0, _⟩ => rfl
  | ⟨1, _⟩ =>
    show k.val - 1024 * J = k.val % 1024
    omega

/-- The stretch's old contents at lane q of tile J are the accumulator's at column 1024·J + q. -/
theorem ld_lane (off : Fin 2 → ℕ) (J : ℕ) (hoff : off = ![0, 1024 * J]) (inb : ∀ b, off b + S1x1024.size b ≤ S1x8192.size b)
    (a : Vec Ideal S1x8192 .f32) (k : Fin 8192) (hk : k.val / 1024 = J) :
    View.ld a (Rect.unit (s := S1x8192) off S1x1024.size inb) (ix2 (0 : Fin 1) (lane k)) = a (ix2 (0 : Fin 1) k) := by
  subst hoff
  show a ((Rect.unit (s := S1x8192) ![0, 1024 * J] S1x1024.size inb).idx (ix2 (0 : Fin 1) (lane k))) = a (ix2 (0 : Fin 1) k)
  congr 1
  funext b
  apply Fin.ext
  match b with
  | ⟨0, _⟩ => rfl
  | ⟨1, _⟩ =>
    show 1024 * J + 1 * (k.val % 1024) = k.val
    omega

/-- The column maxima after one point, at column `k`: in the point's column tile J, the maximum of the old value and of
    the tile's column over its rows (the distance where row and column carry one identity, zero elsewhere); elsewhere
    the old value. -/
theorem stepPos_apply (i : grid0.Coords) (J : ℕ) (hJ : (i 1).val = J) (x1 x2 : Vec Ideal S1x1024 .i32)
    (x0 : Vec Ideal S1024x1024 .f32) (a : Vec Ideal S1x8192 .f32) (k : Fin 8192) :
    stepPos i x1 x2 x0 a (ix2 (0 : Fin 1) k) =
      if k.val / 1024 = J then
        max (a (ix2 (0 : Fin 1) k)) (Finset.univ.sup fun r : Fin 1024 =>
          if x1 (ix2 (0 : Fin 1) r) = x2 (ix2 (0 : Fin 1) (lane k)) then x0 (ix2 r (lane k)) else (0 : EReal))
      else a (ix2 (0 : Fin 1) k) := by
  have hoff : k0_off1 i = ![0, 1024 * J] := by rw [k0_off1_eq, hJ]
  unfold stepPos
  by_cases h : k.val / 1024 = J
  · rw [if_pos h, putAt_in _ _ _ _ ((in_stretch_iff _ J hoff k).mpr h), unitLocal_lane _ J hoff k h, pay5_apply,
      ld_lane _ J hoff _ a k h]
  · rw [if_neg h, putAt_out _ _ _ _ (mt (in_stretch_iff _ J hoff k).mp h)]

/-- The row minima after one point, at row `k`: in the point's row tile I, the minimum of the old value and of the tile's
    row over its columns (+∞ where row and column carry one identity, the distance elsewhere); elsewhere the old value. -/
theorem stepNeg_apply (i : grid0.Coords) (I : ℕ) (hI : (i 0).val = I) (x1 x2 : Vec Ideal S1x1024 .i32)
    (x0 : Vec Ideal S1024x1024 .f32) (a : Vec Ideal S1x8192 .f32) (k : Fin 8192) :
    stepNeg i x1 x2 x0 a (ix2 (0 : Fin 1) k) =
      if k.val / 1024 = I then
        min (a (ix2 (0 : Fin 1) k)) (Finset.univ.inf fun b : Fin 1024 =>
          if x1 (ix2 (0 : Fin 1) (lane k)) = x2 (ix2 (0 : Fin 1) b) then (⊤ : EReal) else x0 (ix2 (lane k) b))
      else a (ix2 (0 : Fin 1) k) := by
  have hoff : k0_off2 i = ![0, 1024 * I] := by rw [k0_off2_eq, hI]
  unfold stepNeg
  by_cases h : k.val / 1024 = I
  · rw [if_pos h, putAt_in _ _ _ _ ((in_stretch_iff _ I hoff k).mpr h), unitLocal_lane _ I hoff k h, pay16_apply,
      ld_lane _ I hoff _ a k h]
  · rw [if_neg h, putAt_out _ _ _ _ (mt (in_stretch_iff _ I hoff k).mp h)]

/-! ## The terms of the two folds, over the kernel's [1, 8192] array of identities -/

/-- The term of the column maximum: the test of the two identities is the test of the words in row 0. -/
theorem posTerm_eq (x : Cert.Spec.Dist) (pv : Vec Ideal S1x8192 .i32) (r k : Fin 8192) :
    Cert.Spec.posTerm x (idsOf pv) r k
      = if pv (ix2 (0 : Fin 1) r) = pv (ix2 (0 : Fin 1) k) then x (ix2 r k) else (0 : EReal) := by
  unfold Cert.Spec.posTerm
  by_cases hs : Cert.Spec.same (idsOf pv) r k
  · rw [if_pos hs, if_pos (show pv (ix2 (0 : Fin 1) r) = pv (ix2 (0 : Fin 1) k) from hs)]
  · rw [if_neg hs, if_neg (show ¬pv (ix2 (0 : Fin 1) r) = pv (ix2 (0 : Fin 1) k) from hs)]

/-- The term of the row minimum, likewise. -/
theorem negTerm_eq (x : Cert.Spec.Dist) (pv : Vec Ideal S1x8192 .i32) (r k : Fin 8192) :
    Cert.Spec.negTerm x (idsOf pv) r k
      = if pv (ix2 (0 : Fin 1) r) = pv (ix2 (0 : Fin 1) k) then (⊤ : EReal) else x (ix2 r k) := by
  unfold Cert.Spec.negTerm
  by_cases hs : Cert.Spec.same (idsOf pv) r k
  · rw [if_pos hs, if_pos (show pv (ix2 (0 : Fin 1) r) = pv (ix2 (0 : Fin 1) k) from hs)]
  · rw [if_neg hs, if_neg (show ¬pv (ix2 (0 : Fin 1) r) = pv (ix2 (0 : Fin 1) k) from hs)]

/-! ## One point of the program is one point of the mathematical accumulation -/

/-- The program's update of the column maxima at point `t`, over an accumulator that reads as `acc`, is `updPos` at `t`. -/
theorem step_pos_upd (c : Dev nD) (t : Fin cfg0.N) (a : Vec Ideal S1x8192 .f32) (acc : Fin 8192 → EReal)
    (hacc : ∀ k, a (ix2 (0 : Fin 1) k) = acc k) (k : Fin 8192) :
    stepPos (grid0.coords t) (xb1 V c t) (xb2 V c t) (xb0 V c t) a (ix2 (0 : Fin 1) k)
      = Cert.Spec.updPos (V c main_arg0) (idsOf (V c main_v0)) t.val (lt64 t) acc k := by
  obtain ⟨-, hj, -⟩ := grid_facts t
  rw [stepPos_apply (grid0.coords t) (t.val % 8) hj]
  unfold Cert.Spec.updPos
  by_cases h : k.val / 1024 = t.val % 8
  · rw [if_pos h, if_pos h, hacc]
    refine congrArg (max _) (Finset.sup_congr rfl fun r _ => ?_)
    have hk : Cert.Spec.tileIdx (t.val % 8) (mod8 t) (lane k) = k := Cert.Spec.tileIdx_mod _ _ k h
    rw [xb1_apply, xb2_apply, xb0_apply, hk]
    exact (posTerm_eq _ _ _ _).symm
  · rw [if_neg h, if_neg h, hacc]

/-- The program's update of the row minima at point `t` is `updNeg` at `t`. -/
theorem step_neg_upd (c : Dev nD) (t : Fin cfg0.N) (a : Vec Ideal S1x8192 .f32) (acc : Fin 8192 → EReal)
    (hacc : ∀ k, a (ix2 (0 : Fin 1) k) = acc k) (k : Fin 8192) :
    stepNeg (grid0.coords t) (xb1 V c t) (xb2 V c t) (xb0 V c t) a (ix2 (0 : Fin 1) k)
      = Cert.Spec.updNeg (V c main_arg0) (idsOf (V c main_v0)) t.val (lt64 t) acc k := by
  obtain ⟨hi, -⟩ := grid_facts t
  rw [stepNeg_apply (grid0.coords t) (t.val / 8) hi]
  unfold Cert.Spec.updNeg
  by_cases h : k.val / 1024 = t.val / 8
  · rw [if_pos h, if_pos h, hacc]
    refine congrArg (min _) (Finset.inf_congr rfl fun b _ => ?_)
    have hk : Cert.Spec.tileIdx (t.val / 8) (div8 t) (lane k) = k := Cert.Spec.tileIdx_mod _ _ k h
    rw [xb1_apply, xb2_apply, xb0_apply, hk]
    exact (negTerm_eq _ _ _ _).symm
  · rw [if_neg h, if_neg h, hacc]

/-- After the body at position `n` the two accumulators are the mathematical ones before point `n + 1`. -/
theorem outs_eq_acc (c : Dev nD) : ∀ (n : ℕ) (hn : n < cfg0.N) (k : Fin 8192),
    (outs V c n hn).1 (ix2 (0 : Fin 1) k)
        = Cert.Spec.accPos (V c main_arg0) (idsOf (V c main_v0)) (n + 1) (Nat.succ_le_of_lt (lt_of_lt_of_eq hn N_0)) k
    ∧ (outs V c n hn).2 (ix2 (0 : Fin 1) k)
        = Cert.Spec.accNeg (V c main_arg0) (idsOf (V c main_v0)) (n + 1) (Nat.succ_le_of_lt (lt_of_lt_of_eq hn N_0)) k := by
  intro n
  induction n with
  | zero =>
    intro hn k
    rw [Cert.Spec.accPos_succ, Cert.Spec.accNeg_succ]
    exact ⟨step_pos_upd V c ⟨0, hn⟩ _ _ (fun k' => pay2_apply _) k,
      step_neg_upd V c ⟨0, hn⟩ _ _ (fun k' => pay3_apply _) k⟩
  | succ n ih =>
    intro hn k
    have ih' := ih (Nat.lt_of_succ_lt hn)
    rw [Cert.Spec.accPos_succ, Cert.Spec.accNeg_succ]
    exact ⟨step_pos_upd V c ⟨n + 1, hn⟩ _ _ (fun k' => (ih' k').1) k,
      step_neg_upd V c ⟨n + 1, hn⟩ _ _ (fun k' => (ih' k').2) k⟩

/-- After the last point the column maxima are the whole-array maximum from zero, -/
theorem outs_last_pos (c : Dev nD) (h63 : 63 < cfg0.N) (k : Fin 8192) :
    (outs V c 63 h63).1 (ix2 (0 : Fin 1) k) = Cert.Spec.fposK (V c main_arg0) (idsOf (V c main_v0)) k := by
  rw [(outs_eq_acc V c 63 h63 k).1]
  exact Cert.Spec.accPos_last _ _ k

/-- and the row minima the whole-array minimum. -/
theorem outs_last_neg (c : Dev nD) (h63 : 63 < cfg0.N) (k : Fin 8192) :
    (outs V c 63 h63).2 (ix2 (0 : Fin 1) k) = Cert.Spec.fneg (V c main_arg0) (idsOf (V c main_v0)) k := by
  rw [(outs_eq_acc V c 63 h63 k).2]
  exact Cert.Spec.accNeg_last _ _ k

end Cert.KernelIdeal.Hand

end
-- ==== Proof.KFinal.lean ====
/-
  The idealized kernel's result buffer at the end of @main. The softplus chain is applied to the difference of the two
  result arrays reshaped to vectors; each result array is written back once, at the last grid point, whole, so it holds
  the accumulator after the last point: the whole-array maximum from zero, the whole-array minimum. The distances
  reach the region as launched, the identities as the launched vector laid out as one row. So the result is
  `Cert.Spec.outK` of the two argument arrays.
-/
import proofs.«164058_j4466765988650_1_alg».proof.Proof.KLaunch
import proofs.«164058_j4466765988650_1_alg».proof.Proof.KValue

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-! ## A reshape between one row and a vector, read at an index -/

/-- A row of 8192 entries laid out as a vector: entry k of the vector is entry (0, k) of the row. -/
theorem cast_row {α : Type} (v : S1x8192.Idx → α) (h : S1x8192.ShapeCasts S8192) (k : Fin 8192) :
    shapeCast S8192 v h (ix1 k) = v (ix2 (0 : Fin 1) k) := by
  refine shapeCast_apply v h (ix1 k) (ix2 (0 : Fin 1) k) ?_
  rw [Shape.rowMajor_val_two, Shape.rowMajor_val_one]
  show (0 : ℕ) * 8192 + k.val = k.val
  omega

/-- A vector of 8192 entries laid out as one row: entry (0, k) of the row is entry k of the vector. -/
theorem cast_col {α : Type} (p : S8192.Idx → α) (h : S8192.ShapeCasts S1x8192) (k : Fin 8192) :
    shapeCast S1x8192 p h (ix2 (0 : Fin 1) k) = p (ix1 k) := by
  refine shapeCast_apply p h (ix2 (0 : Fin 1) k) (ix1 k) ?_
  rw [Shape.rowMajor_val_two, Shape.rowMajor_val_one]
  show k.val = (0 : ℕ) * 8192 + k.val
  omega

/-! ## The two host stretches after the region -/

/-- From any contents of the buffers, the two stretches leave in the result buffer the elementwise tail of the
    difference of the two result arrays read as vectors. -/
theorem tail_of (W : Valuation τ sig (Elt Ideal)) :
    StableHlo.after hostOps1_1 (StableHlo.after hostOps1 W) (Proc.devRef .tc main_v5)
      = Cert.Spec.softplusV (subf
          (shapeCast S8192 (W (Proc.devRef .tc main_v1_0) : Vec Ideal S1x8192 .f32) shapeCasts_S1x8192_S8192)
          (shapeCast S8192 (W (Proc.devRef .tc main_v1_1) : Vec Ideal S1x8192 .f32) shapeCasts_S1x8192_S8192)) := by
  after_results
  unfold Cert.Spec.softplusV
  rfl

/-! ## The arguments as the region finds them -/

/-- The distances reach the region as launched. -/
theorem V1_arg0 (c : Dev nD) : V1 m c main_arg0 = m ((c : Thread nD τ).loc main_arg0) := by
  show StableHlo.after hostOps0 (fun b => m (c, b)) (Proc.devRef .tc main_arg0) = _
  after_results

/-- The identities reach the region as the launched vector laid out as one row. -/
theorem V1_v0 (c : Dev nD) :
    (V1 m c main_v0 : Vec Ideal S1x8192 .i32)
      = shapeCast S1x8192 (m ((c : Thread nD τ).loc main_arg1) : Vec Ideal S8192 .i32) shapeCasts_S8192_S1x8192 := by
  show StableHlo.after hostOps0 (fun b => m (c, b)) (Proc.devRef .tc main_v0) = _
  after_results
  rfl

/-- Read back through the row, they are the launched identities. -/
theorem ids_eq (c : Dev nD) : idsOf (V1 m c main_v0) = m ((c : Thread nD τ).loc main_arg1) := by
  funext k
  obtain ⟨j, rfl⟩ : ∃ j : Fin 8192, k = ix1 j := ⟨k 0, eq_ix1 k⟩
  show (V1 m c main_v0 : Vec Ideal S1x8192 .i32) (ix2 (0 : Fin 1) j) = _
  rw [V1_v0]
  exact cast_col _ _ j

/-! ## The two result arrays at the region's exit -/

/-- The grid has a point 63, its last. -/
theorem h63 : 63 < cfg0.N := lt_of_lt_of_eq (show (63 : ℕ) < 64 by decide) N_0.symm

/-- The last point. -/
abbrev tLast : Fin cfg0.N := ⟨63, h63⟩

/-- The column maxima after the last point, as contents of their array (its one block is the array). -/
abbrev G3 (c : Dev nD) : Buf (Elt Ideal) ((cfg0.win 3).arr.view.loc (c : Thread nD τ)) := (outs (V1 m) c 63 h63).1
/-- The row minima after the last point, likewise. -/
abbrev G4 (c : Dev nD) : Buf (Elt Ideal) ((cfg0.win 4).arr.view.loc (c : Thread nD τ)) := (outs (V1 m) c 63 h63).2

/-- The one write-back of the column maxima, at the last point, writes them whole: block (0, 0) of the array read
    through zero offsets is the array. -/
theorem flushed3 (c : Dev nD) (t : Fin cfg0.N) (hf : (cfg0.win 3).flush t = true) :
    (dat (V1 m) c).flushed 3 t = ((cfg0.win 3).blk t).view.read (Elt Ideal) (G3 m c) := by
  have h3 : t.val = 63 := by have := (flush0_3 t).mp hf; have := lt64 t; omega
  obtain rfl : t = tLast := Fin.ext h3
  show (cfg0.win 3).cut (grid0.coords tLast) ((dat (V1 m) c).after 3 tLast) = _
  rw [after_3]
  have hz' : (fun a => win0_3.index tLast a * main_v1_0.ty.shape.size a) = fun _ => 0 :=
    funext fun a => by fin_cases a <;> decide
  exact (Memref.read_access_unit_zero (Elt Ideal) main_v1_0 hz' (fun a => by rw [congrFun hz' a]; simp) (G3 m c)).symm

/-- Likewise the row minima. -/
theorem flushed4 (c : Dev nD) (t : Fin cfg0.N) (hf : (cfg0.win 4).flush t = true) :
    (dat (V1 m) c).flushed 4 t = ((cfg0.win 4).blk t).view.read (Elt Ideal) (G4 m c) := by
  have h3 : t.val = 63 := by have := (flush0_4 t).mp hf; have := lt64 t; omega
  obtain rfl : t = tLast := Fin.ext h3
  show (cfg0.win 4).cut (grid0.coords tLast) ((dat (V1 m) c).after 4 tLast) = _
  rw [after_4]
  have hz' : (fun a => win0_4.index tLast a * main_v1_1.ty.shape.size a) = fun _ => 0 :=
    funext fun a => by fin_cases a <;> decide
  exact (Memref.read_access_unit_zero (Elt Ideal) main_v1_1 hz' (fun a => by rw [congrFun hz' a]; simp) (G4 m c)).symm

/-- The last point's block covers the column maxima's array, so the array ends holding them. -/
theorem final3 (c : Dev nD) : (dat (V1 m) c).arrAt 3 cfg0.N = G3 m c :=
  (dat (V1 m) c).arrAt_eq_of_cover 3 (G3 m c) (flushed3 m c) fun i =>
    ⟨tLast, (flush0_3 tLast).mpr rfl, by
      show i ∈ ((View.whole main_v1_0).slice (win0_3.rect tLast)).set
      rw [View.set_slice_whole, Rect.mem_set_unit]
      intro a
      have h0 : (i 0 : Nat) < 1 := (i 0).isLt
      have h1 : (i 1 : Nat) < 8192 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]; omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 8192 from by decide +kernel]; omega⟩

/-- Likewise the row minima's array. -/
theorem final4 (c : Dev nD) : (dat (V1 m) c).arrAt 4 cfg0.N = G4 m c :=
  (dat (V1 m) c).arrAt_eq_of_cover 4 (G4 m c) (flushed4 m c) fun i =>
    ⟨tLast, (flush0_4 tLast).mpr rfl, by
      show i ∈ ((View.whole main_v1_1).slice (win0_4.rect tLast)).set
      rw [View.set_slice_whole, Rect.mem_set_unit]
      intro a
      have h0 : (i 0 : Nat) < 1 := (i 0).isLt
      have h1 : (i 1 : Nat) < 8192 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]; omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 8192 from by decide +kernel]; omega⟩

/-! ## The two differences' operands are the specification's -/

/-- The column maxima's array read as a vector is the kernel's furthest positives. -/
theorem pos_eq (c : Dev nD) :
    shapeCast S8192 (W2 m c (Proc.devRef .tc main_v1_0) : Vec Ideal S1x8192 .f32) shapeCasts_S1x8192_S8192
      = Cert.Spec.posKV (m ((c : Thread nD τ).loc main_arg0)) (m ((c : Thread nD τ).loc main_arg1)) := by
  funext k
  obtain ⟨j, rfl⟩ : ∃ j : Fin 8192, k = ix1 j := ⟨k 0, eq_ix1 k⟩
  rw [cast_row]
  show (W2 m c main_v1_0 : Vec Ideal S1x8192 .f32) (ix2 (0 : Fin 1) j) = Cert.Spec.fposK _ _ j
  rw [W2_v1_0, final3]
  show (outs (V1 m) c 63 h63).1 (ix2 (0 : Fin 1) j) = _
  rw [outs_last_pos, V1_arg0, ids_eq]

/-- The row minima's array read as a vector is the closest negatives. -/
theorem neg_eq (c : Dev nD) :
    shapeCast S8192 (W2 m c (Proc.devRef .tc main_v1_1) : Vec Ideal S1x8192 .f32) shapeCasts_S1x8192_S8192
      = Cert.Spec.negV (m ((c : Thread nD τ).loc main_arg0)) (m ((c : Thread nD τ).loc main_arg1)) := by
  funext k
  obtain ⟨j, rfl⟩ : ∃ j : Fin 8192, k = ix1 j := ⟨k 0, eq_ix1 k⟩
  rw [cast_row]
  show (W2 m c main_v1_1 : Vec Ideal S1x8192 .f32) (ix2 (0 : Fin 1) j) = Cert.Spec.fneg _ _ j
  rw [W2_v1_1, final4]
  show (outs (V1 m) c 63 h63).2 (ix2 (0 : Fin 1) j) = _
  rw [outs_last_neg, V1_arg0, ids_eq]

/-- The result buffer ends at the kernel's specification of the two arguments. -/
theorem W4_v5 (c : Dev nD) :
    W4 m c main_v5 = Cert.Spec.outK (m ((c : Thread nD τ).loc main_arg0)) (m ((c : Thread nD τ).loc main_arg1)) := by
  refine (tail_of (W2 m c)).trans ?_
  unfold Cert.Spec.outK
  rw [pos_eq, neg_eq]

end Cert.KernelIdeal.Hand

end
-- ==== Proof.KMain.lean ====
/-
  The idealized kernel's run: every weakly fair execution terminates, leaves the two argument arrays as they were,
  and (on the extended reals) ends with its result at `Cert.Spec.outK` of them. Each is the launch's post — every
  unscoped buffer at the last valuation — read at one buffer.
-/
import proofs.«164058_j4466765988650_1_alg».proof.Defs
import proofs.«164058_j4466765988650_1_alg».proof.Proof.Gen.KernelIdeal
import proofs.«164058_j4466765988650_1_alg».proof.Proof.Spec
import proofs.«164058_j4466765988650_1_alg».proof.Proof.KLaunch
import proofs.«164058_j4466765988650_1_alg».proof.Proof.KKeep
import proofs.«164058_j4466765988650_1_alg».proof.Proof.KFinal

noncomputable section

namespace Cert.KernelIdeal.Hand

open Idealize.ShloMosaic Idealize.ShloMosaic.TcCoe Idealize.SL.Sem
open Cert.KernelIdeal

variable {F : FTy → Type} [FloatOps F]

/-- The frame, at any float instance. -/
theorem frame (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.KernelIdeal.defs (F := F)) _ _).mono (fun _ h c =>
    ⟨(h c _ (mem_uc main_arg0 (by decide))).trans (W4_arg0 m c), (h c _ (mem_uc main_arg1 (by decide))).trans (W4_arg1 m c)⟩) (run_all m ρ)

/-- The value, on the extended reals. -/
theorem run_outK (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v5)
          = Cert.Spec.outK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.KernelIdeal.defs (F := Ideal)) _ _).mono (fun _ h c =>
    ⟨(h c _ (mem_uc main_v5 (by decide))).trans (W4_v5 m c),
     (h c _ (mem_uc main_arg0 (by decide))).trans (W4_arg0 m c), (h c _ (mem_uc main_arg1 (by decide))).trans (W4_arg1 m c)⟩) (run_all m ρ)

end Cert.KernelIdeal.Hand

end
-- ==== Proof.RefValue.lean ====
/-
  The reference's run read back: its result array is `Cert.Spec.outR` of the two argument arrays.
-/
import proofs.«164058_j4466765988650_1_alg».proof.Defs
import proofs.«164058_j4466765988650_1_alg».proof.Proof.Gen.ReferenceIdeal.Run
import proofs.«164058_j4466765988650_1_alg».proof.Proof.Gen.ReferenceIdeal.Read
import proofs.«164058_j4466765988650_1_alg».proof.Proof.Spec
import Idealize.ShloMosaic.PureOps.Ideal.Laws
import Idealize.ShloMosaic.Lib.ValueIdx

noncomputable section

namespace Cert.ReferenceIdeal.RefValue

open Idealize.ShloMosaic Idealize.ShloMosaic.TcCoe Idealize.SL.Sem
open Cert.ReferenceIdeal
open Idealize.ShloMosaic.ValueIdx

/-! ## Words: the two infinities, and a comparison bit -/

/-- The word `0xFF800000` denotes -∞. -/
theorem ofBits_negInf : Ideal.ofBits .f32 0xFF800000#32 = (⊥ : EReal) := by
  simp [Ideal.ofBits, Ideal.ieee]

/-- The word `0x7F800000` denotes +∞. -/
theorem ofBits_posInf : Ideal.ofBits .f32 0x7F800000#32 = (⊤ : EReal) := by
  simp [Ideal.ofBits, Ideal.ieee]

/-- The equality comparison's bit is set exactly when the two words are equal. -/
theorem cmpi_eq_one_iff (a b : BitVec 32) : IntOp.cmpi .eq a b = 1#1 ↔ a = b := by
  show BitVec.ofBool (a == b) = 1#1 ↔ a = b
  by_cases h : a = b
  · subst h; simp
  · have hb : (a == b) = false := beq_eq_false_iff_ne.2 h
    rw [hb]; exact ⟨fun h1 => absurd h1 (by decide), fun h2 => absurd h2 h⟩

/-- The comparison's bit converted to a float is the 0/1 indicator of equality. -/
theorem uitofp_cmpi_eq (a b : BitVec 32) :
    FloatOps.uitofp (F := Ideal) .f32 (IntOp.cmpi .eq a b) = if a = b then (1 : EReal) else 0 := by
  by_cases h : a = b
  · subst h; simp [IntOp.cmpi, FloatOps.uitofp]
  · simp [IntOp.cmpi, FloatOps.uitofp, h]

/-- A select on the comparison's bit is the `if` on equality. -/
theorem select_cmpi_eq {α : Type} (a b : BitVec 32) (t e : α) :
    Scalar.select (IntOp.cmpi .eq a b) t e = if a = b then t else e := by
  by_cases h : a = b
  · rw [if_pos h, (cmpi_eq_one_iff a b).2 h]; exact select_one t e
  · rw [if_neg h, eq_zero_of_ne_one (fun h1 => h ((cmpi_eq_one_iff a b).1 h1))]; exact select_zero t e

/-! ## Folds of max from -∞ and of min from +∞ are the supremum and the infimum -/

theorem fold_max_eq_sup (f : Fin 8192 → EReal) :
    (Finset.univ : Finset (Fin 8192)).fold (FloatOps.maximumf (F := Ideal) (φ := .f32)) (Ideal.ofBits .f32 0xFF800000#32) f
      = Finset.univ.sup f := by
  rw [ofBits_negInf]; rfl

theorem fold_min_eq_inf (f : Fin 8192 → EReal) :
    (Finset.univ : Finset (Fin 8192)).fold (FloatOps.minimumf (F := Ideal) (φ := .f32)) (Ideal.ofBits .f32 0x7F800000#32) f
      = Finset.univ.inf f := by
  rw [ofBits_posInf]; rfl

/-! ## The two reduced axes -/

theorem red0 : S8192x8192.Reduces [0] S8192 := by decide
theorem red1 : S8192x8192.Reduces [1] S8192 := by decide

/-- Column `j` with row `r` put back is (r, j). -/
theorem lift0 (h : S8192x8192.Reduces [0] S8192) (j : Fin 8192) (r : Fin (S8192x8192.size 0)) :
    h.lift (ix1 j) r = ix2 (⟨r.val, r.isLt⟩ : Fin 8192) j := by
  funext c; apply Fin.ext
  fin_cases c <;> rfl

/-- Row `j` with column `c` put back is (j, c). -/
theorem lift1 (h : S8192x8192.Reduces [1] S8192) (j : Fin 8192) (c : Fin (S8192x8192.size 1)) :
    h.lift (ix1 j) c = ix2 j (⟨c.val, c.isLt⟩ : Fin 8192) := by
  funext d; apply Fin.ext
  fin_cases d <;> rfl

/-! ## The two reduced operands at an element -/

/-- At (r, j) the maximum's operand is the distance times the indicator that row r and column j carry one identity. -/
theorem v6_at (x0 : (⟨S8192x8192, .f32⟩ : BufTy).Contents (Elt Ideal)) (x1 : (⟨S8192, .i32⟩ : BufTy).Contents (Elt Ideal))
    (r j : Fin 8192) : Read.val_main_v6 (F := Ideal) x0 x1 (ix2 r j) = Cert.Spec.refPosTerm x0 x1 r j := by
  have e2 : Read.idx_main_v0 (Read.idx_main_v2 (ix2 r j)) = ix1 j :=
    funext fun a => Fin.ext (by match a with | ⟨0, _⟩ => rfl)
  have e3 : Read.idx_main_v1 (Read.idx_main_v3 (ix2 r j)) = ix1 r :=
    funext fun a => Fin.ext (by match a with | ⟨0, _⟩ => rfl)
  rw [Read.val_main_v6_apply, Read.val_main_v5_apply, Read.val_main_v4_apply, Read.val_main_v2_apply, Read.val_main_v3_apply,
    Read.val_main_v0_apply, Read.val_main_v1_apply, e2, e3, uitofp_cmpi_eq]
  unfold Cert.Spec.refPosTerm
  by_cases h : Cert.Spec.same x1 r j
  · rw [if_pos h, if_pos (show x1 (ix1 j) = x1 (ix1 r) from (show x1 (ix1 r) = x1 (ix1 j) from h).symm)]; rfl
  · rw [if_neg h, if_neg (show ¬ x1 (ix1 j) = x1 (ix1 r) from fun e => h (show x1 (ix1 r) = x1 (ix1 j) from e.symm))]; rfl

/-- At (j, c) the minimum's operand is +∞ where row j and column c carry one identity, the distance elsewhere. -/
theorem v8_at (x0 : (⟨S8192x8192, .f32⟩ : BufTy).Contents (Elt Ideal)) (x1 : (⟨S8192, .i32⟩ : BufTy).Contents (Elt Ideal))
    (j c : Fin 8192) : Read.val_main_v8 (F := Ideal) x0 x1 (ix2 j c) = Cert.Spec.negTerm x0 x1 j c := by
  have e2 : Read.idx_main_v0 (Read.idx_main_v2 (ix2 j c)) = ix1 c :=
    funext fun a => Fin.ext (by match a with | ⟨0, _⟩ => rfl)
  have e3 : Read.idx_main_v1 (Read.idx_main_v3 (ix2 j c)) = ix1 j :=
    funext fun a => Fin.ext (by match a with | ⟨0, _⟩ => rfl)
  rw [Read.val_main_v8_apply, Read.val_main_v4_apply, Read.val_main_v2_apply, Read.val_main_v3_apply,
    Read.val_main_v0_apply, Read.val_main_v1_apply, Read.val_main_call0_v0_apply, Read.val_main_cst_0_apply, e2, e3, select_cmpi_eq]
  unfold Cert.Spec.negTerm
  by_cases h : Cert.Spec.same x1 j c
  · rw [if_pos h, if_pos (show x1 (ix1 c) = x1 (ix1 j) from (show x1 (ix1 j) = x1 (ix1 c) from h).symm)]
    exact ofBits_posInf
  · rw [if_neg h, if_neg (show ¬ x1 (ix1 c) = x1 (ix1 j) from fun e => h (show x1 (ix1 j) = x1 (ix1 c) from e.symm))]

/-! ## The two reductions are the specification's -/

/-- The maximum over the rows, from -∞, is the reference's furthest positive of each column. -/
theorem h7 (x0 : (⟨S8192x8192, .f32⟩ : BufTy).Contents (Elt Ideal)) (x1 : (⟨S8192, .i32⟩ : BufTy).Contents (Elt Ideal)) :
    Read.val_main_v7 (F := Ideal) x0 x1 = Cert.Spec.posRV x0 x1 := by
  funext k
  obtain ⟨j, rfl⟩ : ∃ j : Fin 8192, k = ix1 j := ⟨k 0, eq_ix1 k⟩
  unfold Read.val_main_v7
  rw [Host.reduce_eq_fold_single FloatOps.maximumf _ _ Gen.reducesTo_S8192x8192_S8192_d0 red0 Gen.h_S_]
  have hf : (Read.val_main_v6 (F := Ideal) x0 x1 ∘ red0.lift (ix1 j))
      = fun r : Fin 8192 => Cert.Spec.refPosTerm x0 x1 r j :=
    funext fun r => (congrArg (Read.val_main_v6 (F := Ideal) x0 x1) (lift0 red0 j r)).trans (v6_at x0 x1 ⟨r.val, r.isLt⟩ j)
  refine (congrArg (fun f => Finset.fold (FloatOps.maximumf (F := Ideal) (φ := .f32)) (Ideal.ofBits .f32 0xFF800000#32) f
    (Finset.univ : Finset (Fin 8192))) hf).trans ?_
  exact fold_max_eq_sup _

/-- The minimum over the columns, from +∞, is the closest negative of each row. -/
theorem h9 (x0 : (⟨S8192x8192, .f32⟩ : BufTy).Contents (Elt Ideal)) (x1 : (⟨S8192, .i32⟩ : BufTy).Contents (Elt Ideal)) :
    Read.val_main_v9 (F := Ideal) x0 x1 = Cert.Spec.negV x0 x1 := by
  funext k
  obtain ⟨j, rfl⟩ : ∃ j : Fin 8192, k = ix1 j := ⟨k 0, eq_ix1 k⟩
  unfold Read.val_main_v9
  rw [Host.reduce_eq_fold_single FloatOps.minimumf _ _ Gen.reducesTo_S8192x8192_S8192_d1 red1 Gen.h_S_]
  have hf : (Read.val_main_v8 (F := Ideal) x0 x1 ∘ red1.lift (ix1 j))
      = fun c : Fin 8192 => Cert.Spec.negTerm x0 x1 j c :=
    funext fun c => (congrArg (Read.val_main_v8 (F := Ideal) x0 x1) (lift1 red1 j c)).trans (v8_at x0 x1 j ⟨c.val, c.isLt⟩)
  refine (congrArg (fun f => Finset.fold (FloatOps.minimumf (F := Ideal) (φ := .f32)) (Ideal.ofBits .f32 0x7F800000#32) f
    (Finset.univ : Finset (Fin 8192))) hf).trans ?_
  exact fold_min_eq_inf _

/-! ## The result -/

/-- The elementwise tail is the specification's, applied to the difference of the two reductions kept as one vector. -/
theorem tail_eq (x0 : (⟨S8192x8192, .f32⟩ : BufTy).Contents (Elt Ideal)) (x1 : (⟨S8192, .i32⟩ : BufTy).Contents (Elt Ideal)) :
    Read.val_main_v11 (F := Ideal) x0 x1 = Cert.Spec.softplusV (Read.val_main_v10 (F := Ideal) x0 x1) := by
  unfold Read.val_main_v11 Read.val_main_call1_v4 Read.val_main_call1_v6 Read.val_main_call1_v11 Read.val_main_call1_v1
    Read.val_main_call1_v10 Read.val_main_call1_v9 Read.val_main_call1_v8 Read.val_main_call1_v7 Read.val_main_call1_v3
    Read.val_main_call1_v0 Read.val_main_call1_v2 Read.val_main_call1_v5 Read.val_main_call1_cst Cert.Spec.softplusV
  rfl

/-- The reference's result is the specification's. -/
theorem val_eq (x0 : (⟨S8192x8192, .f32⟩ : BufTy).Contents (Elt Ideal)) (x1 : (⟨S8192, .i32⟩ : BufTy).Contents (Elt Ideal)) :
    Read.val_main_v11 (F := Ideal) x0 x1 = Cert.Spec.outR x0 x1 := by
  have h10 : Read.val_main_v10 (F := Ideal) x0 x1 = subf (Cert.Spec.posRV x0 x1) (Cert.Spec.negV x0 x1) := by
    unfold Read.val_main_v10; rw [h7, h9]
  exact (tail_eq x0 x1).trans (congrArg Cert.Spec.softplusV h10)

/-- Every weakly fair execution of the reference ends with its result at `outR` of the arguments, which are unchanged. -/
theorem run_outR (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v11)
            = Cert.Spec.outR (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) := by
  exact (θ_run (Cert.ReferenceIdeal.defs (F := Ideal)) _ _).mono
    (fun _ h c => ⟨(h c).1.trans ((Read.val_main_v11_eq m c).trans (val_eq _ _)), (h c).2⟩)
    (Value.run (F := Ideal) m ρ)

end Cert.ReferenceIdeal.RefValue

end
-- ==== Proof.SpecMath.lean ====
/-
  The two programs' differences agree. In a column that has some pair that is not positive the kernel's zero start
  changes nothing (that pair already contributes zero) and, every distance being a real, the reference's product
  with the 0/1 indicator is the kernel's masked term. In a column all of whose pairs are positive every identity
  equals the column's, so row k has no negative pair, its minimum is +∞, and either difference is -∞.
-/
import proofs.«164058_j4466765988650_1_alg».proof.Proof.Spec

noncomputable section

namespace Cert.Spec

open Idealize.ShloMosaic Idealize.ShloMosaic.ValueIdx

/-- On a real distance the product with the 0/1 indicator is the masked term: v · 1 = v and v · 0 = 0. -/
theorem refPosTerm_eq_posTerm (x : Dist) (p : Ids) (hfin : ∀ i, ∃ r : ℝ, x i = (r : EReal)) (r c : Fin 8192) :
    refPosTerm x p r c = posTerm x p r c := by
  unfold refPosTerm posTerm
  obtain ⟨v, hv⟩ := hfin (ix2 r c)
  rw [hv]
  by_cases h : same p r c
  · rw [if_pos h, if_pos h, mul_one]
  · rw [if_neg h, if_neg h, mul_zero]

/-- So the reference's furthest positive is the maximum, from -∞, of the kernel's masked terms. -/
theorem fposR_eq_sup_posTerm (x : Dist) (p : Ids) (hfin : ∀ i, ∃ r : ℝ, x i = (r : EReal)) (c : Fin 8192) :
    fposR x p c = Finset.univ.sup fun r : Fin 8192 => posTerm x p r c := by
  unfold fposR
  exact Finset.sup_congr rfl fun r _ => refPosTerm_eq_posTerm x p hfin r c

/-- A column with a pair that is not positive: that pair's term is zero, so the maximum of the masked terms is
    already at least zero and starting it from zero changes nothing. -/
theorem fposK_eq_fposR_of_not_same (x : Dist) (p : Ids) (hfin : ∀ i, ∃ r : ℝ, x i = (r : EReal)) (c r₀ : Fin 8192)
    (hr₀ : ¬ same p r₀ c) : fposK x p c = fposR x p c := by
  have hterm : posTerm x p r₀ c = 0 := by unfold posTerm; rw [if_neg hr₀]
  have h0 : (0 : EReal) ≤ Finset.univ.sup fun r : Fin 8192 => posTerm x p r c := by
    rw [← hterm]
    exact Finset.le_sup (f := fun r : Fin 8192 => posTerm x p r c) (Finset.mem_univ r₀)
  rw [fposR_eq_sup_posTerm x p hfin c]
  unfold fposK
  exact max_eq_right h0

/-- A column all of whose pairs are positive: every identity equals the column's, so every pair of that row is
    positive, every term of the row minimum is +∞, and the minimum is +∞. -/
theorem fneg_eq_top_of_all_same (x : Dist) (p : Ids) (k : Fin 8192) (hall : ∀ r : Fin 8192, same p r k) :
    fneg x p k = ⊤ := by
  unfold fneg
  refine le_antisymm le_top (Finset.le_inf fun c _ => ?_)
  have hkc : same p k c := by
    have h := hall c
    unfold same at h ⊢
    exact h.symm
  unfold negTerm
  rw [if_pos hkc]

/-- With every distance a real, the kernel's and the reference's differences agree at every index. -/
theorem diff_eq (x : Dist) (p : Ids) (hfin : ∀ i, ∃ r : ℝ, x i = (r : EReal)) (k : Fin 8192) :
    fposK x p k - fneg x p k = fposR x p k - fneg x p k := by
  by_cases hall : ∀ r : Fin 8192, same p r k
  · -- anything minus +∞ is -∞
    rw [fneg_eq_top_of_all_same x p k hall, EReal.sub_top, EReal.sub_top]
  · obtain ⟨r₀, hr₀⟩ := not_forall.mp hall
    rw [fposK_eq_fposR_of_not_same x p hfin k r₀ hr₀]

/-- So the two results are one vector. -/
theorem outK_eq_outR (x : Dist) (p : Ids) (hfin : ∀ i, ∃ r : ℝ, x i = (r : EReal)) : outK x p = outR x p := by
  unfold outK outR
  congr 1
  funext k
  show posKV x p k - negV x p k = posRV x p k - negV x p k
  unfold posKV posRV negV
  exact diff_eq x p hfin (k 0)

end Cert.Spec

end
-- ==== Proof.Finite.lean ====
/-
  The precondition as printed — the conjunction, over every entry, of |x| < +∞ — says that every distance is a real.
-/
import proofs.«164058_j4466765988650_1_alg».proof.Defs
import proofs.«164058_j4466765988650_1_alg».proof.Proof.Gen.Pre_finite_inputs
import Idealize.ShloMosaic.Lib.ReduceAll

noncomputable section

namespace Cert.Proof.Finite

open Idealize.ShloMosaic

/-- The rank-0 shape has exactly one index: there is no axis to give a coordinate on. -/
instance subsingleton_scalar_idx : Subsingleton Cert.Pre_finite_inputs.S_.Idx :=
  ⟨fun _ _ => funext fun d => d.elim0⟩

/-- A one-bit word made from a Boolean is 1 exactly when the Boolean is true. -/
theorem ofBool_eq_one {b : Bool} (h : BitVec.ofBool b = 1#1) : b = true := by
  cases b
  · exact absurd h (by decide)
  · rfl

/-- The ordered "less than" of two extended reals reads 1 only when the first is below the second. -/
theorem lt_of_cmp_olt {a b : EReal} (h : Ideal.cmp .olt a b = 1#1) : a < b := by
  have h1 : decide (a < b) = true := ofBool_eq_one h
  exact of_decide_eq_true h1

/-- The f32 word 0x7F800000 (sign 0, exponent all ones, mantissa 0) denotes +∞. -/
theorem inf_word : Ideal.ofBits .f32 0x7F800000#32 = (⊤ : EReal) := by
  simp [Ideal.ofBits, Ideal.ieee]

/-- An extended real whose absolute value max a (-a) is below +∞ is a real: at a = -∞ the negation is +∞,
    at a = +∞ the number itself is. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- If the printed predicate is all ones on `x` (whatever the identities), every entry of `x` is a real. -/
theorem real_of_pre (x : FVec Ideal Cert.Pre_finite_inputs.S8192x8192 .f32) (p : IVec Cert.Pre_finite_inputs.S8192 32)
    (h : Cert.Pre_finite_inputs.fn (F := Ideal) x p = fun _ => 1#1) : ∀ i, ∃ r : ℝ, x i = (r : EReal) := by
  intro i
  -- the predicate's one result word, at the one index of the rank-0 shape
  have h0 := congrFun h (fun d => d.elim0)
  dsimp only [Cert.Pre_finite_inputs.fn] at h0
  -- a conjunction over every entry that is 1 had a 1 at every entry
  have hi := Host.reduce_andi_all _ _ _ _ _ h0 i
  -- at entry i the compared words are |x i| = max (x i) (-(x i)) and the splat constant
  have hc : Ideal.cmp .olt (max (x i) (-(x i))) (Ideal.ofBits .f32 0x7F800000#32) = 1#1 := hi
  rw [inf_word] at hc
  exact real_of_abs_lt_top (x i) (lt_of_cmp_olt hc)

end Cert.Proof.Finite

end
-- ==== Proof.lean ====
/-
  The certificate: the kernel and the reference both run and leave the distances and the identities as they were, and on
  the extended reals, when every distance is finite, they end with the same vector.
  The kernel's column maxima over the positive pairs start from zero, the reference's from -∞; the two differ only in a
  column all of whose pairs are positive with negative distances. Then every identity is the same, the row minimum
  over the pairs that are not positive is +∞, and both differences are -∞, on which the elementwise tail agrees.
-/
import proofs.«164058_j4466765988650_1_alg».proof.Defs
import proofs.«164058_j4466765988650_1_alg».proof.Proof.Gen.Kernel
import proofs.«164058_j4466765988650_1_alg».proof.Proof.Gen.KernelIdeal
import proofs.«164058_j4466765988650_1_alg».proof.Proof.Gen.ReferenceIdeal
import proofs.«164058_j4466765988650_1_alg».proof.Proof.Gen.Pre_finite_inputs
import proofs.«164058_j4466765988650_1_alg».proof.Proof.BMain
import proofs.«164058_j4466765988650_1_alg».proof.Proof.KMain
import proofs.«164058_j4466765988650_1_alg».proof.Proof.RefValue
import proofs.«164058_j4466765988650_1_alg».proof.Proof.SpecMath
import proofs.«164058_j4466765988650_1_alg».proof.Proof.Finite

noncomputable section

namespace Cert.Proof

open Idealize.ShloMosaic Idealize.SL.Sem Cert.Kernel
open Idealize.ShloMosaic.TcCoe

/-- At the word level the kernel runs and leaves its two argument arrays as they were. -/
theorem frame_k : Cert.frame_Kernel := fun m ρ _ => Cert.Kernel.Hand.frame (F := Bits) m ρ

/-- On the extended reals the kernel runs and leaves its two argument arrays as they were. -/
theorem frame_ki : Cert.frame_KernelIdeal := fun m ρ _ => Cert.KernelIdeal.Hand.frame (F := Ideal) m ρ

/-- The reference runs and leaves its two argument arrays as they were. -/
theorem frame_ri : Cert.frame_ReferenceIdeal := fun m ρ _ =>
  (θ_run (Cert.ReferenceIdeal.defs (F := Ideal)) _ _).mono (fun _ h c => (h c).2) (Cert.ReferenceIdeal.RefValue.run_outR m ρ)

/-- From arguments that agree, with every distance finite, the kernel ends at `outK` and the reference at `outR` of
    them, and the two are one vector. -/
theorem algebraic : Cert.algebraic_KernelIdeal_ReferenceIdeal := by
  intro m ρ m' ρ' hpre hagree
  refine ⟨fun c => Cert.Spec.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_outK m ρ, ?_⟩
  refine (θ_run (Cert.ReferenceIdeal.defs (F := Ideal)) _ _).mono (fun _ h c => ⟨(h c).1.trans ?_, (h c).2⟩)
    (Cert.ReferenceIdeal.RefValue.run_outR m' ρ')
  rw [(hagree c).1, (hagree c).2]
  exact (Cert.Spec.outK_eq_outR _ _ (Cert.Proof.Finite.real_of_pre _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
